-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x2048 : Shape := ⟨2, ![64, 2048]⟩
abbrev S131072 : Shape := ⟨1, ![131072]⟩
abbrev S400x512 : Shape := ⟨2, ![400, 512]⟩
abbrev S400 : Shape := ⟨1, ![400]⟩
abbrev S300x400 : Shape := ⟨2, ![300, 400]⟩
abbrev S300 : Shape := ⟨1, ![300]⟩
abbrev S2x302 : Shape := ⟨2, ![2, 302]⟩
abbrev S2 : Shape := ⟨1, ![2]⟩
abbrev S1x302 : Shape := ⟨2, ![1, 302]⟩
abbrev S1 : Shape := ⟨1, ![1]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S131072 : S_.BroadcastsInDim S131072 (![] : Fin 0 → Fin S131072.rank)
  reducesTo_S131072_S_d0 : S131072.ReducesTo [0] S_
  bcast_S_S400x512 : S_.BroadcastsInDim S400x512 (![] : Fin 0 → Fin S400x512.rank)
  reducesTo_S400x512_S_d0_1 : S400x512.ReducesTo [0, 1] S_
  bcast_S_S400 : S_.BroadcastsInDim S400 (![] : Fin 0 → Fin S400.rank)
  reducesTo_S400_S_d0 : S400.ReducesTo [0] S_
  bcast_S_S300x400 : S_.BroadcastsInDim S300x400 (![] : Fin 0 → Fin S300x400.rank)
  reducesTo_S300x400_S_d0_1 : S300x400.ReducesTo [0, 1] S_
  bcast_S_S300 : S_.BroadcastsInDim S300 (![] : Fin 0 → Fin S300.rank)
  reducesTo_S300_S_d0 : S300.ReducesTo [0] S_
  bcast_S_S2x302 : S_.BroadcastsInDim S2x302 (![] : Fin 0 → Fin S2x302.rank)
  reducesTo_S2x302_S_d0_1 : S2x302.ReducesTo [0, 1] S_
  bcast_S_S2 : S_.BroadcastsInDim S2 (![] : Fin 0 → Fin S2.rank)
  reducesTo_S2_S_d0 : S2.ReducesTo [0] S_
  bcast_S_S1x302 : S_.BroadcastsInDim S1x302 (![] : Fin 0 → Fin S1x302.rank)
  reducesTo_S1x302_S_d0_1 : S1x302.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S2x302 .f32) (main_arg9 : FVec F S2 .f32) (main_arg10 : FVec F S1x302 .f32) (main_arg11 : FVec F S1 .f32) (main_v33 : IVec S_ 1) : IVec S_ 1 :=
  let main_v34 : FVec F S2x302 .f32 := Host.absf main_arg8
  let main_cst_12 : FVec F S_ .f32 := constant S_ .f32 0x7F800000#32
  let main_v35 : FVec F S2x302 .f32 := broadcastInDim S2x302 ![] bcast_S_S2x302 main_cst_12
  let main_v36 : IVec S2x302 1 := cmpf .olt main_v34 main_v35
  let main_c_13 : IVec S_ 1 := constantI S_ 1 1#1
  let main_v37 : IVec S_ 1 := (fun x v => Host.reduce IntOp.andi x v reducesTo_S2x302_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S1x302 .f32 := Host.absf main_arg10
  let main_cst_16 : FVec F S_ .f32 := constant S_ .f32 0x7F800000#32
  let main_v45 : FVec F S1x302 .f32 := broadcastInDim S1x302 ![] bcast_S_S1x302 main_cst_16
  let main_v46 : IVec S1x302 1 := cmpf .olt main_v44 main_v45
  let main_c_17 : IVec S_ 1 := constantI S_ 1 1#1
  let main_v47 : IVec S_ 1 := (fun x v => Host.reduce IntOp.andi x v reducesTo_S1x302_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S400 .f32) (main_arg6 : FVec F S300x400 .f32) (main_arg7 : FVec F S300 .f32) (main_arg8 : FVec F S2x302 .f32) (main_arg9 : FVec F S2 .f32) (main_arg10 : FVec F S1x302 .f32) (main_arg11 : FVec F S1 .f32) (main_v13 : IVec S_ 1) (main_v16 : IVec S400x512 1) : IVec S_ 1 :=
  let main_c_5 : IVec S_ 1 := constantI S_ 1 1#1
  let main_v17 : IVec S_ 1 := (fun x v => Host.reduce IntOp.andi x v reducesTo_S400x512_S_d0_1 h_S_) main_v16 main_c_5
  let main_v18 : IVec S_ 1 := andi main_v13 main_v17
  let main_v19 : FVec F S400 .f32 := Host.absf main_arg5
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S300x400 .f32 := Host.absf main_arg6
  let main_cst_8 : FVec F S_ .f32 := constant S_ .f32 0x7F800000#32
  let main_v25 : FVec F S300x400 .f32 := broadcastInDim S300x400 ![] bcast_S_S300x400 main_cst_8
  let main_v26 : IVec S300x400 1 := cmpf .olt main_v24 main_v25
  let main_c_9 : IVec S_ 1 := constantI S_ 1 1#1
  let main_v27 : IVec S_ 1 := (fun x v => Host.reduce IntOp.andi x v reducesTo_S300x400_S_d0_1 h_S_) main_v26 main_c_9
  let main_v28 : IVec S_ 1 := andi main_v23 main_v27
  let main_v29 : FVec F S300 .f32 := Host.absf main_arg7
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S64x2048x512 .f32) (main_arg1 : FVec F S64x2048 .f32) (main_arg2 : IVec S64x2048 32) (main_arg3 : FVec F S131072 .f32) (main_arg4 : FVec F S400x512 .f32) (main_arg5 : FVec F S400 .f32) (main_arg6 : FVec F S300x400 .f32) (main_arg7 : FVec F S300 .f32) (main_arg8 : FVec F S2x302 .f32) (main_arg9 : FVec F S2 .f32) (main_arg10 : FVec F S1x302 .f32) (main_arg11 : FVec F S1 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S131072 .f32 := Host.absf main_arg3
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S400x512 .f32 := Host.absf main_arg4
  let main_cst_4 : FVec F S_ .f32 := constant S_ .f32 0x7F800000#32
  let main_v15 : FVec F S400x512 .f32 := broadcastInDim S400x512 ![] bcast_S_S400x512 main_cst_4
  let main_v16 : IVec S400x512 1 := cmpf .olt main_v14 main_v15
  fn_part1 (F := F) main_arg5 main_arg6 main_arg7 main_arg8 main_arg9 main_arg10 main_arg11 main_v13 main_v16
-- ==== Kernel.lean ====
abbrev S64x2048x512 : Shape := ⟨3, ![64, 2048, 512]⟩
abbrev S64x2048 : Shape := ⟨2, ![64, 2048]⟩
abbrev S131072 : Shape := ⟨1, ![131072]⟩
abbrev S400x512 : Shape := ⟨2, ![400, 512]⟩
abbrev S400 : Shape := ⟨1, ![400]⟩
abbrev S300x400 : Shape := ⟨2, ![300, 400]⟩
abbrev S300 : Shape := ⟨1, ![300]⟩
abbrev S2x302 : Shape := ⟨2, ![2, 302]⟩
abbrev S2 : Shape := ⟨1, ![2]⟩
abbrev S1x302 : Shape := ⟨2, ![1, 302]⟩
abbrev S1 : Shape := ⟨1, ![1]⟩
abbrev S131072x512 : Shape := ⟨2, ![131072, 512]⟩
abbrev S131072x1 : Shape := ⟨2, ![131072, 1]⟩
abbrev S1x400 : Shape := ⟨2, ![1, 400]⟩
abbrev S1x300 : Shape := ⟨2, ![1, 300]⟩
abbrev S1x2 : Shape := ⟨2, ![1, 2]⟩
abbrev S1x1 : Shape := ⟨2, ![1, 1]⟩
abbrev S2x300 : Shape := ⟨2, ![2, 300]⟩
abbrev S2x1 : Shape := ⟨2, ![2, 1]⟩
abbrev S131072x4 : Shape := ⟨2, ![131072, 4]⟩
abbrev S2048x512 : Shape := ⟨2, ![2048, 512]⟩
abbrev S2048x1 : Shape := ⟨2, ![2048, 1]⟩
abbrev S2048x4 : Shape := ⟨2, ![2048, 4]⟩
abbrev S512x400 : Shape := ⟨2, ![512, 400]⟩
abbrev S2048x400 : Shape := ⟨2, ![2048, 400]⟩
abbrev S400x300 : Shape := ⟨2, ![400, 300]⟩
abbrev S2048x300 : Shape := ⟨2, ![2048, 300]⟩
abbrev S300x2 : Shape := ⟨2, ![300, 2]⟩
abbrev S2048x2 : Shape := ⟨2, ![2048, 2]⟩
abbrev S300x1 : Shape := ⟨2, ![300, 1]⟩
abbrev S64x2048x4 : Shape := ⟨3, ![64, 2048, 4]⟩

abbrev nBuf : Space → Nat
  | .hbm => 32
  | .vmem => 22
  | .smem => 0
  | _ => 0

abbrev bufTy : (tb : Table) → Fin (tcTables nBuf tb) → BufTy
  | .hbm, ⟨0, _⟩ => ⟨S64x2048x512, .f32⟩
  | .hbm, ⟨1, _⟩ => ⟨S64x2048, .f32⟩
  | .hbm, ⟨2, _⟩ => ⟨S64x2048, .i32⟩
  | .hbm, ⟨3, _⟩ => ⟨S131072, .f32⟩
  | .hbm, ⟨4, _⟩ => ⟨S400x512, .f32⟩
  | .hbm, ⟨5, _⟩ => ⟨S400, .f32⟩
  | .hbm, ⟨6, _⟩ => ⟨S300x400, .f32⟩
  | .hbm, ⟨7, _⟩ => ⟨S300, .f32⟩
  | .hbm, ⟨8, _⟩ => ⟨S2x302, .f32⟩
  | .hbm, ⟨9, _⟩ => ⟨S2, .f32⟩
  | .hbm, ⟨10, _⟩ => ⟨S1x302, .f32⟩
  | .hbm, ⟨11, _⟩ => ⟨S1, .f32⟩
  | .hbm, ⟨12, _⟩ => ⟨S131072x512, .f32⟩
  | .hbm, ⟨13, _⟩ => ⟨S131072x1, .f32⟩
  | .hbm, ⟨14, _⟩ => ⟨S131072x1, .i32⟩
  | .hbm, ⟨15, _⟩ => ⟨S131072x1, .f32⟩
  | .hbm, ⟨16, _⟩ => ⟨S1x400, .f32⟩
  | .hbm, ⟨17, _⟩ => ⟨S1x300, .f32⟩
  | .hbm, ⟨18, _⟩ => ⟨S1x2, .f32⟩
  | .hbm, ⟨19, _⟩ => ⟨S1x1, .f32⟩
  | .hbm, ⟨20, _⟩ => ⟨S2x300, .f32⟩
  | .hbm, ⟨21, _⟩ => ⟨S2x1, .f32⟩
  | .hbm, ⟨22, _⟩ => ⟨S1x2, .f32⟩
  | .hbm, ⟨23, _⟩ => ⟨S2x1, .f32⟩
  | .hbm, ⟨24, _⟩ => ⟨S1x2, .f32⟩
  | .hbm, ⟨25, _⟩ => ⟨S1x300, .f32⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S131072x4, .f32⟩
  | .hbm, ⟨31, _⟩ => ⟨S64x2048x4, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S2048x1, .i32⟩
  | .local _ .vmem, ⟨5, _⟩ => ⟨S2048x1, .i32⟩
  | .local _ .vmem, ⟨6, _⟩ => ⟨S2048x1, .f32⟩
  | .local _ .vmem, ⟨7, _⟩ => ⟨S2048x1, .f32⟩
  | .local _ .vmem, ⟨8, _⟩ => ⟨S400x512, .f32⟩
  | .local _ .vmem, ⟨9, _⟩ => ⟨S1x400, .f32⟩
  | .local _ .vmem, ⟨10, _⟩ => ⟨S300x400, .f32⟩
  | .local _ .vmem, ⟨11, _⟩ => ⟨S1x300, .f32⟩
  | .local _ .vmem, ⟨12, _⟩ => ⟨S2x300, .f32⟩
  | .local _ .vmem, ⟨13, _⟩ => ⟨S1x2, .f32⟩
  | .local _ .vmem, ⟨14, _⟩ => ⟨S1x2, .f32⟩
  | .local _ .vmem, ⟨15, _⟩ => ⟨S1x2, .f32⟩
  | .local _ .vmem, ⟨16, _⟩ => ⟨S1x300, .f32⟩
  | .local _ .vmem, ⟨17, _⟩ => ⟨S1x1, .f32⟩
  | .local _ .vmem, ⟨18, _⟩ => ⟨S1x1, .f32⟩
  | .local _ .vmem, ⟨19, _⟩ => ⟨S1x1, .f32⟩
  | .local _ .vmem, ⟨20, _⟩ => ⟨S2048x4, .f32⟩
  | .local _ .vmem, ⟨21, _⟩ => ⟨S2048x4, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S400x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300x400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x300 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x300 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x300 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048x4 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S64x2048x512_S131072x512 : S64x2048x512.ShapeCasts S131072x512
  shapeCasts_S64x2048_S131072x1 : S64x2048.ShapeCasts S131072x1
  shapeCasts_S131072_S131072x1 : S131072.ShapeCasts S131072x1
  shapeCasts_S400_S1x400 : S400.ShapeCasts S1x400
  shapeCasts_S300_S1x300 : S300.ShapeCasts S1x300
  shapeCasts_S2_S1x2 : S2.ShapeCasts S1x2
  shapeCasts_S1_S1x1 : S1.ShapeCasts S1x1
  slices_S2x302_S2x300_0_0 : S2x302.Slices ![0, 0] S2x300
  slices_S2x302_S2x1_0_300 : S2x302.Slices ![0, 300] S2x1
  transposes_S2x1_S1x2_1_0 : S2x1.Transposes [1, 0] S1x2
  slices_S2x302_S2x1_0_301 : S2x302.Slices ![0, 301] S2x1
  slices_S1x302_S1x300_0_0 : S1x302.Slices ![0, 0] S1x300
  slices_S1x302_S1x1_0_300 : S1x302.Slices ![0, 300] S1x1
  transposes_S1x1_S1x1_1_0 : S1x1.Transposes [1, 0] S1x1
  slices_S1x302_S1x1_0_301 : S1x302.Slices ![0, 301] S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S400x512_S400x512_0_0 : ∀ a, (![0, 0] : Fin 2 → Nat) a + S400x512.size a ≤ S400x512.size a
  h_S400x512 : 0 < S400x512.numel
  transposes_S400x512_p1_0_S512x400 : S400x512.Transposes [1, 0] S512x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S2048x400 : S1x400.Broadcasts S2048x400
  inb_S300x400_S300x400_0_0 : ∀ a, (![0, 0] : Fin 2 → Nat) a + S300x400.size a ≤ S300x400.size a
  h_S300x400 : 0 < S300x400.numel
  transposes_S300x400_p1_0_S400x300 : S300x400.Transposes [1, 0] S400x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2x300_S2x300_0_0 : ∀ a, (![0, 0] : Fin 2 → Nat) a + S2x300.size a ≤ S2x300.size a
  h_S2x300 : 0 < S2x300.numel
  shapeCasts_S2x300_S2x300 : S2x300.ShapeCasts S2x300
  transposes_S2x300_p1_0_S300x2 : S2x300.Transposes [1, 0] S300x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S2048x1_S2048x2 : S2048x1.Broadcasts S2048x2
  broadcasts_S1x2_S2048x2 : S1x2.Broadcasts S2048x2
  transposes_S1x300_p1_0_S300x1 : S1x300.Transposes [1, 0] S300x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  slices_S2048x2_o0_0_S2048x1 : S2048x2.Slices ![0, 0] S2048x1
  slices_S2048x2_o0_1_S2048x1 : S2048x2.Slices ![0, 1] S2048x1
  concatenates_S2048x2_S2048x1_S2048x1_S2048x4_d1 : Shape.Concatenates [S2048x2, S2048x1, S2048x1] S2048x4 1
  inb_S2048x4_S2048x4_0_0 : ∀ a, (![0, 0] : Fin 2 → Nat) a + S2048x4.size a ≤ S2048x4.size a
  h_S2048x4 : 0 < S2048x4.numel
  shapeCasts_S131072x4_S64x2048x4 : S131072x4.ShapeCasts S64x2048x4
  dot_S2048x512_S512x400_S2048x400_1_0_0_1_n_n_wf : DotDims.WF S2048x512 S512x400 S2048x400 [1] [0] [0] [1] [] []
  dot_S2048x400_S400x300_S2048x300_1_0_0_1_n_n_wf : DotDims.WF S2048x400 S400x300 S2048x300 [1] [0] [0] [1] [] []
  dot_S2048x300_S300x2_S2048x2_1_0_0_1_n_n_wf : DotDims.WF S2048x300 S300x2 S2048x2 [1] [0] [0] [1] [] []
  dot_S2048x300_S300x1_S2048x1_1_0_0_1_n_n_wf : DotDims.WF S2048x300 S300x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .f32 = 32 ∨ (Rect.block (s := S131072x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .i32 = 32 ∨ (Rect.block (s := S131072x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S131072x1.size a
  hwx0_3 : ∀ i : grid0.Coords, EltTy.bits .f32 = 32 ∨ (Rect.block (s := S131072x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S400x512.size a ≤ S400x512.size a
  hwx0_4 : ∀ i : grid0.Coords, EltTy.bits .f32 = 32 ∨ (Rect.block (s := S400x512) S400x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x400.size a ≤ S1x400.size a
  hwx0_5 : ∀ i : grid0.Coords, EltTy.bits .f32 = 32 ∨ (Rect.block (s := S1x400) S1x400.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S300x400.size a ≤ S300x400.size a
  hwx0_6 : ∀ i : grid0.Coords, EltTy.bits .f32 = 32 ∨ (Rect.block (s := S300x400) S300x400.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x300.size a ≤ S1x300.size a
  hwx0_7 : ∀ i : grid0.Coords, EltTy.bits .f32 = 32 ∨ (Rect.block (s := S1x300) S1x300.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x300.size a ≤ S2x300.size a
  hwx0_8 : ∀ i : grid0.Coords, EltTy.bits .f32 = 32 ∨ (Rect.block (s := S2x300) S2x300.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2.size a ≤ S1x2.size a
  hwx0_9 : ∀ i : grid0.Coords, EltTy.bits .f32 = 32 ∨ (Rect.block (s := S1x2) S1x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2.size a ≤ S1x2.size a
  hwx0_11 : ∀ i : grid0.Coords, EltTy.bits .f32 = 32 ∨ (Rect.block (s := S1x2) S1x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x300.size a ≤ S1x300.size a
  hwx0_12 : ∀ i : grid0.Coords, EltTy.bits .f32 = 32 ∨ (Rect.block (s := S1x300) S1x300.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x4.size a ≤ S131072x4.size a
  hwx0_16 : ∀ i : grid0.Coords, EltTy.bits .f32 = 32 ∨ (Rect.block (s := S131072x4) S2048x4.size (cc0_transform_16 i) (hinb0_16 i)).WholeWords (EltTy.packing .f32)

variable [Facts₀]

def dot_S2048x512_S512x400_S2048x400_1_0_0_1_n_n : DotDims S2048x512 S512x400 S2048x400 where
  lhsContracting := [1]
  rhsContracting := [0]
  lhsNonContracting := [0]
  rhsNonContracting := [1]
  lhsBatch := []
  rhsBatch := []
  wf := dot_S2048x512_S512x400_S2048x400_1_0_0_1_n_n_wf
def dot_S2048x400_S400x300_S2048x300_1_0_0_1_n_n : DotDims S2048x400 S400x300 S2048x300 where
  lhsContracting := [1]
  rhsContracting := [0]
  lhsNonContracting := [0]
  rhsNonContracting := [1]
  lhsBatch := []
  rhsBatch := []
  wf := dot_S2048x400_S400x300_S2048x300_1_0_0_1_n_n_wf
def dot_S2048x300_S300x2_S2048x2_1_0_0_1_n_n : DotDims S2048x300 S300x2 S2048x2 where
  lhsContracting := [1]
  rhsContracting := [0]
  lhsNonContracting := [0]
  rhsNonContracting := [1]
  lhsBatch := []
  rhsBatch := []
  wf := dot_S2048x300_S300x2_S2048x2_1_0_0_1_n_n_wf
def dot_S2048x300_S300x1_S2048x1_1_0_0_1_n_n : DotDims S2048x300 S300x1 S2048x1 where
  lhsContracting := [1]
  rhsContracting := [0]
  lhsNonContracting := [0]
  rhsNonContracting := [1]
  lhsBatch := []
  rhsBatch := []
  wf := dot_S2048x300_S300x1_S2048x1_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S400x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S300x400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x300.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S2x300.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x300.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v18) S2048x4.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x2048 : Shape := ⟨2, ![64, 2048]⟩
abbrev S131072 : Shape := ⟨1, ![131072]⟩
abbrev S400x512 : Shape := ⟨2, ![400, 512]⟩
abbrev S400 : Shape := ⟨1, ![400]⟩
abbrev S300x400 : Shape := ⟨2, ![300, 400]⟩
abbrev S300 : Shape := ⟨1, ![300]⟩
abbrev S2x302 : Shape := ⟨2, ![2, 302]⟩
abbrev S2 : Shape := ⟨1, ![2]⟩
abbrev S1x302 : Shape := ⟨2, ![1, 302]⟩
abbrev S1 : Shape := ⟨1, ![1]⟩
abbrev S131072x512 : Shape := ⟨2, ![131072, 512]⟩
abbrev S512x400 : Shape := ⟨2, ![512, 400]⟩
abbrev S131072x400 : Shape := ⟨2, ![131072, 400]⟩
abbrev S1x400 : Shape := ⟨2, ![1, 400]⟩
abbrev S_ : Shape := ⟨0, ![]⟩
abbrev S400x300 : Shape := ⟨2, ![400, 300]⟩
abbrev S131072x300 : Shape := ⟨2, ![131072, 300]⟩
abbrev S1x300 : Shape := ⟨2, ![1, 300]⟩
abbrev S131072x1 : Shape := ⟨2, ![131072, 1]⟩
abbrev S131072x302 : Shape := ⟨2, ![131072, 302]⟩
abbrev S302x2 : Shape := ⟨2, ![302, 2]⟩
abbrev S131072x2 : Shape := ⟨2, ![131072, 2]⟩
abbrev S1x2 : Shape := ⟨2, ![1, 2]⟩
abbrev S302x1 : Shape := ⟨2, ![302, 1]⟩
abbrev S1x1 : Shape := ⟨2, ![1, 1]⟩
abbrev S64x2048x2 : Shape := ⟨3, ![64, 2048, 2]⟩
abbrev S64x2048x1 : Shape := ⟨3, ![64, 2048, 1]⟩
abbrev S64x2048x4 : Shape := ⟨3, ![64, 2048, 4]⟩

abbrev nBuf : Space → Nat
  | .hbm => 69
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2048, .f32⟩
  | .hbm, ⟨2, _⟩ => ⟨S64x2048, .i32⟩
  | .hbm, ⟨3, _⟩ => ⟨S131072, .f32⟩
  | .hbm, ⟨4, _⟩ => ⟨S400x512, .f32⟩
  | .hbm, ⟨5, _⟩ => ⟨S400, .f32⟩
  | .hbm, ⟨6, _⟩ => ⟨S300x400, .f32⟩
  | .hbm, ⟨7, _⟩ => ⟨S300, .f32⟩
  | .hbm, ⟨8, _⟩ => ⟨S2x302, .f32⟩
  | .hbm, ⟨9, _⟩ => ⟨S2, .f32⟩
  | .hbm, ⟨10, _⟩ => ⟨S1x302, .f32⟩
  | .hbm, ⟨11, _⟩ => ⟨S1, .f32⟩
  | .hbm, ⟨12, _⟩ => ⟨S131072x512, .f32⟩
  | .hbm, ⟨13, _⟩ => ⟨S512x400, .f32⟩
  | .hbm, ⟨14, _⟩ => ⟨S131072x400, .f32⟩
  | .hbm, ⟨15, _⟩ => ⟨S1x400, .f32⟩
  | .hbm, ⟨16, _⟩ => ⟨S131072x400, .f32⟩
  | .hbm, ⟨17, _⟩ => ⟨S131072x400, .f32⟩
  | .hbm, ⟨18, _⟩ => ⟨S_, .f32⟩
  | .hbm, ⟨19, _⟩ => ⟨S131072x400, .f32⟩
  | .hbm, ⟨20, _⟩ => ⟨S131072x400, .f32⟩
  | .hbm, ⟨21, _⟩ => ⟨S400x300, .f32⟩
  | .hbm, ⟨22, _⟩ => ⟨S131072x300, .f32⟩
  | .hbm, ⟨23, _⟩ => ⟨S1x300, .f32⟩
  | .hbm, ⟨24, _⟩ => ⟨S131072x300, .f32⟩
  | .hbm, ⟨25, _⟩ => ⟨S131072x300, .f32⟩
  | .hbm, ⟨26, _⟩ => ⟨S_, .f32⟩
  | .hbm, ⟨27, _⟩ => ⟨S131072x300, .f32⟩
  | .hbm, ⟨28, _⟩ => ⟨S131072x300, .f32⟩
  | .hbm, ⟨29, _⟩ => ⟨S131072x1, .i32⟩
  | .hbm, ⟨30, _⟩ => ⟨S131072x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64x2048, .f32⟩
  | .hbm, ⟨35, _⟩ => ⟨S64x2048, .f32⟩
  | .hbm, ⟨36, _⟩ => ⟨S_, .f32⟩
  | .hbm, ⟨37, _⟩ => ⟨S64x2048, .f32⟩
  | .hbm, ⟨38, _⟩ => ⟨S64x2048, .f32⟩
  | .hbm, ⟨39, _⟩ => ⟨S131072x1, .f32⟩
  | .hbm, ⟨40, _⟩ => ⟨S131072x302, .f32⟩
  | .hbm, ⟨41, _⟩ => ⟨S302x2, .f32⟩
  | .hbm, ⟨42, _⟩ => ⟨S131072x2, .f32⟩
  | .hbm, ⟨43, _⟩ => ⟨S1x2, .f32⟩
  | .hbm, ⟨44, _⟩ => ⟨S131072x2, .f32⟩
  | .hbm, ⟨45, _⟩ => ⟨S131072x2, .f32⟩
  | .hbm, ⟨46, _⟩ => ⟨S131072x2, .f32⟩
  | .hbm, ⟨47, _⟩ => ⟨S131072x2, .f32⟩
  | .hbm, ⟨48, _⟩ => ⟨S_, .f32⟩
  | .hbm, ⟨49, _⟩ => ⟨S131072x2, .f32⟩
  | .hbm, ⟨50, _⟩ => ⟨S131072x2, .f32⟩
  | .hbm, ⟨51, _⟩ => ⟨S_, .f32⟩
  | .hbm, ⟨52, _⟩ => ⟨S131072x2, .f32⟩
  | .hbm, ⟨53, _⟩ => ⟨S131072x2, .f32⟩
  | .hbm, ⟨54, _⟩ => ⟨S302x1, .f32⟩
  | .hbm, ⟨55, _⟩ => ⟨S131072x1, .f32⟩
  | .hbm, ⟨56, _⟩ => ⟨S1x1, .f32⟩
  | .hbm, ⟨57, _⟩ => ⟨S131072x1, .f32⟩
  | .hbm, ⟨58, _⟩ => ⟨S131072x1, .f32⟩
  | .hbm, ⟨59, _⟩ => ⟨S131072x1, .f32⟩
  | .hbm, ⟨60, _⟩ => ⟨S131072, .f32⟩
  | .hbm, ⟨61, _⟩ => ⟨S131072x1, .f32⟩
  | .hbm, ⟨62, _⟩ => ⟨S131072, .f32⟩
  | .hbm, ⟨63, _⟩ => ⟨S131072, .f32⟩
  | .hbm, ⟨64, _⟩ => ⟨S131072, .f32⟩
  | .hbm, ⟨65, _⟩ => ⟨S64x2048x2, .f32⟩
  | .hbm, ⟨66, _⟩ => ⟨S64x2048x1, .f32⟩
  | .hbm, ⟨67, _⟩ => ⟨S64x2048x1, .f32⟩
  | .hbm, ⟨68, _⟩ => ⟨S64x2048x4, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call1_cst : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_cst_0 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  shapeCasts_S64x2048x512_S131072x512 : S64x2048x512.ShapeCasts S131072x512
  transposes_S400x512_S512x400_1_0 : S400x512.Transposes [1, 0] S512x400
  bcast_S400_S1x400_1 : S400.BroadcastsInDim S1x400 (![1] : Fin 1 → Fin S1x400.rank)
  bcast_S1x400_S131072x400_0_1 : S1x400.BroadcastsInDim S131072x400 (![0, 1] : Fin 2 → Fin S131072x400.rank)
  bcast_S_S131072x400 : S_.BroadcastsInDim S131072x400 (![] : Fin 0 → Fin S131072x400.rank)
  transposes_S300x400_S400x300_1_0 : S300x400.Transposes [1, 0] S400x300
  bcast_S300_S1x300_1 : S300.BroadcastsInDim S1x300 (![1] : Fin 1 → Fin S1x300.rank)
  bcast_S1x300_S131072x300_0_1 : S1x300.BroadcastsInDim S131072x300 (![0, 1] : Fin 2 → Fin S131072x300.rank)
  bcast_S_S131072x300 : S_.BroadcastsInDim S131072x300 (![] : Fin 0 → Fin S131072x300.rank)
  shapeCasts_S64x2048_S131072x1 : S64x2048.ShapeCasts S131072x1
  bcast_S_S64x2048 : S_.BroadcastsInDim S64x2048 (![] : Fin 0 → Fin S64x2048.rank)
  concatenates_S131072x300_S131072x1_S131072x1_S131072x302_d1 : Shape.Concatenates [S131072x300, S131072x1, S131072x1] S131072x302 1
  transposes_S2x302_S302x2_1_0 : S2x302.Transposes [1, 0] S302x2
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S131072x2 : S_.BroadcastsInDim S131072x2 (![] : Fin 0 → Fin S131072x2.rank)
  transposes_S1x302_S302x1_1_0 : S1x302.Transposes [1, 0] S302x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  slices_S131072x2_S131072x1_0_0 : S131072x2.Slices ![0, 0] S131072x1
  shapeCasts_S131072x1_S131072 : S131072x1.ShapeCasts S131072
  slices_S131072x2_S131072x1_0_1 : S131072x2.Slices ![0, 1] S131072x1
  shapeCasts_S131072x2_S64x2048x2 : S131072x2.ShapeCasts S64x2048x2
  shapeCasts_S131072x1_S64x2048x1 : S131072x1.ShapeCasts S64x2048x1
  shapeCasts_S131072_S64x2048x1 : S131072.ShapeCasts S64x2048x1
  concatenates_S64x2048x2_S64x2048x1_S64x2048x1_S64x2048x4_d2 : Shape.Concatenates [S64x2048x2, S64x2048x1, S64x2048x1] S64x2048x4 2
  dot_S131072x512_S512x400_S131072x400_1_0_0_1_n_n_wf : DotDims.WF S131072x512 S512x400 S131072x400 [1] [0] [0] [1] [] []
  dot_S131072x400_S400x300_S131072x300_1_0_0_1_n_n_wf : DotDims.WF S131072x400 S400x300 S131072x300 [1] [0] [0] [1] [] []
  dot_S131072x302_S302x2_S131072x2_1_0_0_1_n_n_wf : DotDims.WF S131072x302 S302x2 S131072x2 [1] [0] [0] [1] [] []
  dot_S131072x302_S302x1_S131072x1_1_0_0_1_n_n_wf : DotDims.WF S131072x302 S302x1 S131072x1 [1] [0] [0] [1] [] []

variable [Facts₀]

def dot_S131072x512_S512x400_S131072x400_1_0_0_1_n_n : DotDims S131072x512 S512x400 S131072x400 where
  lhsContracting := [1]
  rhsContracting := [0]
  lhsNonContracting := [0]
  rhsNonContracting := [1]
  lhsBatch := []
  rhsBatch := []
  wf := dot_S131072x512_S512x400_S131072x400_1_0_0_1_n_n_wf
def dot_S131072x400_S400x300_S131072x300_1_0_0_1_n_n : DotDims S131072x400 S400x300 S131072x300 where
  lhsContracting := [1]
  rhsContracting := [0]
  lhsNonContracting := [0]
  rhsNonContracting := [1]
  lhsBatch := []
  rhsBatch := []
  wf := dot_S131072x400_S400x300_S131072x300_1_0_0_1_n_n_wf
def dot_S131072x302_S302x2_S131072x2_1_0_0_1_n_n : DotDims S131072x302 S302x2 S131072x2 where
  lhsContracting := [1]
  rhsContracting := [0]
  lhsNonContracting := [0]
  rhsNonContracting := [1]
  lhsBatch := []
  rhsBatch := []
  wf := dot_S131072x302_S302x2_S131072x2_1_0_0_1_n_n_wf
def dot_S131072x302_S302x1_S131072x1_1_0_0_1_n_n : DotDims S131072x302 S302x1 S131072x1 where
  lhsContracting := [1]
  rhsContracting := [0]
  lhsNonContracting := [0]
  rhsNonContracting := [1]
  lhsBatch := []
  rhsBatch := []
  wf := dot_S131072x302_S302x1_S131072x1_1_0_0_1_n_n_wf

class Facts : Prop extends Facts₀ where

variable [Facts]
-- ==== Proof.Spec.lean ====
/-
  The mathematics of this certificate, stated once and free of both programs.

  One row of the network: from a row `x` of 512 observations, a reward `rw`, an integer action `la` and a noise
  sample `ep`,
    h₁ a = max (∑ₖ x k · W₁ a k + b₁ a) 0            (400 units)
    h₂ b = max (∑ₐ h₁ a · W₂ b a + b₂ b) 0           (300 units)
    cr   = min 1 (max (-1) rw),   lf = the integer `la` as a real
    head w β = ∑_b h₂ b · w b + cr · w 300 + lf · w 301 + β      (a weight row of 302 entries)
    π j  = logistic (head (Wp j) (bp j))   (j = 0, 1),   v = head Wb bb,   a = π 0 + π 1 · ep
  and the row's four outputs are π 0, π 1, v, a.

  The two programs differ in how they arrange `head`: one lays h₂, cr and lf side by side as a vector of 302 entries
  and takes ONE dot product with the weight row; the other takes the dot product over the 300 hidden units and adds the
  two remaining products. The extended reals under + are a commutative monoid, so a finite sum may be split after
  its 300th and 301st terms with no finiteness assumption: `headCat_eq_head`.
-/
import Idealize.ShloMosaic.PureOps.Ideal
import Idealize.ShloMosaic.Lib.ValueIdx

noncomputable section

open scoped BigOperators

namespace Cert.Mlp

open Idealize.ShloMosaic Idealize.ShloMosaic.ValueIdx

/-- The float literal `0.0` as the programs spell it. -/
abbrev zeroW : EReal := Ideal.ofBits .f32 0x00000000#32
/-- The float literal `1.0` as the programs spell it. -/
abbrev oneW : EReal := Ideal.ofBits .f32 0x3F800000#32
/-- The float literal `-1.0` as the programs spell it. -/
abbrev negOneW : EReal := Ideal.ofBits .f32 0xBF800000#32

/-- The word `0x3F800000` denotes the real number one. -/
theorem oneW_eq : oneW = 1 := by
  show Ideal.ofBits .f32 0x3F800000#32 = 1
  simp [Ideal.ofBits, Ideal.ieee, -EReal.coe_mul]; norm_num

/-- The logistic function written out with the literal `1.0`: `1 / (1 + e^(-x))`. -/
theorem logistic_spelled (x : EReal) : Ideal.div oneW (oneW + Ideal.exp (-x)) = Ideal.logistic x := by
  rw [oneW_eq]; rfl

/-! ## One row -/

section Row

variable (x : Fin 512 → EReal) (W1 : Fin 400 → Fin 512 → EReal) (b1 : Fin 400 → EReal)
  (W2 : Fin 300 → Fin 400 → EReal) (b2 : Fin 300 → EReal)

/-- First hidden layer: an affine map of the row, cut off below at zero. -/
def hid1 (a : Fin 400) : EReal := max ((∑ k : Fin 512, x k * W1 a k) + b1 a) zeroW

/-- Second hidden layer, over the first. -/
def hid2 (b : Fin 300) : EReal := max ((∑ a : Fin 400, hid1 x W1 b1 a * W2 b a) + b2 b) zeroW

/-- The reward clipped to [-1, 1]. -/
def clip (rw : EReal) : EReal := min oneW (max negOneW rw)

/-- The integer action as a real number. -/
def actionReal (la : BitVec 32) : EReal := ((la.toInt : ℝ) : EReal)

/-- A head's pre-activation: the dot product over the 300 hidden units with the weights `wx`, then the clipped reward
    times its weight `wc`, then the action times its weight `wl`, then the bias. -/
def head (h : Fin 300 → EReal) (cr lf : EReal) (wx : Fin 300 → EReal) (wc wl β : EReal) : EReal :=
  (((∑ b : Fin 300, h b * wx b) + cr * wc) + lf * wl) + β

/-- The 302 inputs of a head laid side by side: the hidden units, then the clipped reward, then the action. -/
def core (h : Fin 300 → EReal) (cr lf : EReal) (k : Fin 302) : EReal :=
  if hk : k.val < 300 then h ⟨k.val, hk⟩ else if k.val = 300 then cr else lf

/-- A head's pre-activation as ONE dot product of the 302 inputs with a weight row of 302 entries. -/
def headCat (h : Fin 300 → EReal) (cr lf : EReal) (w : Fin 302 → EReal) (β : EReal) : EReal :=
  (∑ k : Fin 302, core h cr lf k * w k) + β

/-- The one dot product is the dot product over the hidden units plus the two remaining terms: a finite sum in a
    commutative monoid split after its 300th and 301st terms. -/
theorem headCat_eq_head (h : Fin 300 → EReal) (cr lf : EReal) (w : Fin 302 → EReal) (β : EReal) :
    headCat h cr lf w β
      = head h cr lf (fun b => w ⟨b.val, by omega⟩) (w ⟨300, by omega⟩) (w ⟨301, by omega⟩) β := by
  unfold headCat head
  congr 1
  rw [Fin.sum_univ_castSucc (n := 301), Fin.sum_univ_castSucc (n := 300)]
  have e1 : ∀ b : Fin 300, core h cr lf (Fin.castSucc (Fin.castSucc b)) * w (Fin.castSucc (Fin.castSucc b))
      = h b * w ⟨b.val, by omega⟩ := by
    intro b
    have hb : (Fin.castSucc (Fin.castSucc b) : Fin 302).val < 300 := b.isLt
    unfold core
    rw [dif_pos hb]
    rfl
  have e2 : core h cr lf (Fin.castSucc (Fin.last 300)) = cr := by
    unfold core
    rw [dif_neg (by simp), if_pos (by simp)]
  have e3 : core h cr lf (Fin.last 301) = lf := by
    unfold core
    rw [dif_neg (by simp), if_neg (by simp)]
  rw [Finset.sum_congr rfl (fun b _ => e1 b), e2, e3]
  rfl

variable (rw : EReal) (la : BitVec 32) (ep : EReal)
  (pw : Fin 2 → Fin 300 → EReal) (pc pl pb : Fin 2 → EReal) (vw : Fin 300 → EReal) (vc vl vb : EReal)

/-- The policy head: mean (j = 0) and scale (j = 1), each squashed by the logistic function. -/
def pol (j : Fin 2) : EReal :=
  Ideal.logistic (head (hid2 x W1 b1 W2 b2) (clip rw) (actionReal la) (pw j) (pc j) (pl j) (pb j))

/-- The baseline head. -/
def base : EReal := head (hid2 x W1 b1 W2 b2) (clip rw) (actionReal la) vw vc vl vb

/-- The sampled action: mean plus scale times the noise. -/
def act : EReal := pol x W1 b1 W2 b2 rw la pw pc pl pb 0 + pol x W1 b1 W2 b2 rw la pw pc pl pb 1 * ep

/-- The row's four outputs: the two policy outputs, the baseline, the action. -/
def rowOut (q : Fin 4) : EReal :=
  if q.val = 0 then pol x W1 b1 W2 b2 rw la pw pc pl pb 0
  else if q.val = 1 then pol x W1 b1 W2 b2 rw la pw pc pl pb 1
  else if q.val = 2 then base x W1 b1 W2 b2 rw la vw vc vl vb
  else act x W1 b1 W2 b2 rw la ep pw pc pl pb

end Row

/-! ## The arrays -/

section Arrays

variable (x0 : (⟨3, ![64, 2048, 512]⟩ : Shape).Idx → EReal) (x1 : (⟨2, ![64, 2048]⟩ : Shape).Idx → EReal)
  (x2 : (⟨2, ![64, 2048]⟩ : Shape).Idx → BitVec 32) (x3 : (⟨1, ![131072]⟩ : Shape).Idx → EReal)
  (x4 : (⟨2, ![400, 512]⟩ : Shape).Idx → EReal) (x5 : (⟨1, ![400]⟩ : Shape).Idx → EReal)
  (x6 : (⟨2, ![300, 400]⟩ : Shape).Idx → EReal) (x7 : (⟨1, ![300]⟩ : Shape).Idx → EReal)
  (x8 : (⟨2, ![2, 302]⟩ : Shape).Idx → EReal) (x9 : (⟨1, ![2]⟩ : Shape).Idx → EReal)
  (x10 : (⟨2, ![1, 302]⟩ : Shape).Idx → EReal) (x11 : (⟨1, ![1]⟩ : Shape).Idx → EReal)

/-- The flat position of step `t`, batch entry `b` among the 64 · 2048 rows. -/
abbrev flatRow (t : Fin 64) (b : Fin 2048) : Fin 131072 := ⟨t.val * 2048 + b.val, by omega⟩

/-- The second hidden layer of the row at step `t`, batch entry `b`. -/
def hiddenAt (t : Fin 64) (b : Fin 2048) : Fin 300 → EReal :=
  hid2 (fun k => x0 (ix3 t b k)) (fun a k => x4 (ix2 a k)) (fun a => x5 (ix1 a)) (fun c a => x6 (ix2 c a)) (fun c => x7 (ix1 c))

/-- Policy output `j` of that row: the policy weight row `j` cut into its 300 hidden-unit weights and its two last entries. -/
def polAt (t : Fin 64) (b : Fin 2048) (j : Fin 2) : EReal :=
  pol (fun k => x0 (ix3 t b k)) (fun a k => x4 (ix2 a k)) (fun a => x5 (ix1 a)) (fun c a => x6 (ix2 c a)) (fun c => x7 (ix1 c))
    (x1 (ix2 t b)) (x2 (ix2 t b))
    (fun j c => x8 (ix2 j (⟨c.val, by omega⟩ : Fin 302))) (fun j => x8 (ix2 j (⟨300, by omega⟩ : Fin 302)))
    (fun j => x8 (ix2 j (⟨301, by omega⟩ : Fin 302))) (fun j => x9 (ix1 j)) j

/-- Baseline output of that row. -/
def baseAt (t : Fin 64) (b : Fin 2048) : EReal :=
  base (fun k => x0 (ix3 t b k)) (fun a k => x4 (ix2 a k)) (fun a => x5 (ix1 a)) (fun c a => x6 (ix2 c a)) (fun c => x7 (ix1 c))
    (x1 (ix2 t b)) (x2 (ix2 t b))
    (fun c => x10 (ix2 (0 : Fin 1) (⟨c.val, by omega⟩ : Fin 302))) (x10 (ix2 (0 : Fin 1) (⟨300, by omega⟩ : Fin 302)))
    (x10 (ix2 (0 : Fin 1) (⟨301, by omega⟩ : Fin 302))) (x11 (ix1 (0 : Fin 1)))

/-- The sampled action of that row. -/
def actAt (t : Fin 64) (b : Fin 2048) : EReal :=
  polAt x0 x1 x2 x4 x5 x6 x7 x8 x9 t b 0 + polAt x0 x1 x2 x4 x5 x6 x7 x8 x9 t b 1 * x3 (ix1 (flatRow t b))

/-- Entry `q` of that row's output: the two policy outputs, the baseline, the action. -/
def outAt (t : Fin 64) (b : Fin 2048) (q : Fin 4) : EReal :=
  rowOut (fun k => x0 (ix3 t b k)) (fun a k => x4 (ix2 a k)) (fun a => x5 (ix1 a)) (fun c a => x6 (ix2 c a)) (fun c => x7 (ix1 c))
    (x1 (ix2 t b)) (x2 (ix2 t b)) (x3 (ix1 (flatRow t b)))
    (fun j c => x8 (ix2 j (⟨c.val, by omega⟩ : Fin 302))) (fun j => x8 (ix2 j (⟨300, by omega⟩ : Fin 302)))
    (fun j => x8 (ix2 j (⟨301, by omega⟩ : Fin 302))) (fun j => x9 (ix1 j))
    (fun c => x10 (ix2 (0 : Fin 1) (⟨c.val, by omega⟩ : Fin 302))) (x10 (ix2 (0 : Fin 1) (⟨300, by omega⟩ : Fin 302)))
    (x10 (ix2 (0 : Fin 1) (⟨301, by omega⟩ : Fin 302))) (x11 (ix1 (0 : Fin 1))) q

/-- The whole result array [64, 2048, 4] as one function of the twelve argument arrays. -/
def out : (⟨3, ![64, 2048, 4]⟩ : Shape).Idx → EReal :=
  fun i => outAt x0 x1 x2 x3 x4 x5 x6 x7 x8 x9 x10 x11 (i 0) (i 1) (i 2)

theorem out_apply (t : Fin 64) (b : Fin 2048) (q : Fin 4) :
    out x0 x1 x2 x3 x4 x5 x6 x7 x8 x9 x10 x11 (ix3 t b q) = outAt x0 x1 x2 x3 x4 x5 x6 x7 x8 x9 x10 x11 t b q := rfl

/-- `outAt` by cases on the output column. -/
theorem outAt_of_zero (t : Fin 64) (b : Fin 2048) (q : Fin 4) (hq : q.val = 0) :
    outAt x0 x1 x2 x3 x4 x5 x6 x7 x8 x9 x10 x11 t b q = polAt x0 x1 x2 x4 x5 x6 x7 x8 x9 t b 0 := by
  unfold outAt rowOut polAt; rw [if_pos hq]
theorem outAt_of_one (t : Fin 64) (b : Fin 2048) (q : Fin 4) (hq : q.val = 1) :
    outAt x0 x1 x2 x3 x4 x5 x6 x7 x8 x9 x10 x11 t b q = polAt x0 x1 x2 x4 x5 x6 x7 x8 x9 t b 1 := by
  unfold outAt rowOut polAt; rw [if_neg (by omega), if_pos hq]
theorem outAt_of_two (t : Fin 64) (b : Fin 2048) (q : Fin 4) (hq : q.val = 2) :
    outAt x0 x1 x2 x3 x4 x5 x6 x7 x8 x9 x10 x11 t b q = baseAt x0 x1 x2 x4 x5 x6 x7 x10 x11 t b := by
  unfold outAt rowOut baseAt; rw [if_neg (by omega), if_neg (by omega), if_pos hq]
theorem outAt_of_three (t : Fin 64) (b : Fin 2048) (q : Fin 4) (hq : q.val = 3) :
    outAt x0 x1 x2 x3 x4 x5 x6 x7 x8 x9 x10 x11 t b q = actAt x0 x1 x2 x3 x4 x5 x6 x7 x8 x9 t b := by
  unfold outAt rowOut actAt polAt act; rw [if_neg (by omega), if_neg (by omega), if_neg (by omega)]

end Arrays

end Cert.Mlp

end
-- ==== Proof.KernelEntry.lean ====
/-
  What the kernel's region finds in each window's block.

  Before the region the host only re-lays its arguments: the frames, rewards, actions and noise are flattened to
  131072 rows, the biases become one-row matrices, and each head's weight row is cut into its 300 hidden-unit entries
  and its two last entries (the latter turned into rows). Grid point `t` streams rows `t · 2048 … t · 2048 + 2047` of the
  flattened arrays, which are step `t` of the batch, and sees every weight block whole. So each block entry is one entry
  of an argument array.
-/
import proofs.«114537_j53635551592612_1_alg».proof.Proof.Gen.KernelIdeal.Frame
import proofs.«114537_j53635551592612_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Mlp.Kernel

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- A grid point as a step of the batch. -/
abbrev step (t : Fin cfg0.N) : Fin 64 := ⟨t.val, by have h := t.isLt; have hN : cfg0.N = 64 := N_0; omega⟩

/-! The argument arrays as launched, at their literal types. -/
abbrev A0 (c : Dev nD) : Vec Ideal S64x2048x512 .f32 := m ((c : Thread nD τ).loc main_arg0)
abbrev A1 (c : Dev nD) : Vec Ideal S64x2048 .f32 := m ((c : Thread nD τ).loc main_arg1)
abbrev A2 (c : Dev nD) : Vec Ideal S64x2048 .i32 := m ((c : Thread nD τ).loc main_arg2)
abbrev A3 (c : Dev nD) : Vec Ideal S131072 .f32 := m ((c : Thread nD τ).loc main_arg3)
abbrev A4 (c : Dev nD) : Vec Ideal S400x512 .f32 := m ((c : Thread nD τ).loc main_arg4)
abbrev A5 (c : Dev nD) : Vec Ideal S400 .f32 := m ((c : Thread nD τ).loc main_arg5)
abbrev A6 (c : Dev nD) : Vec Ideal S300x400 .f32 := m ((c : Thread nD τ).loc main_arg6)
abbrev A7 (c : Dev nD) : Vec Ideal S300 .f32 := m ((c : Thread nD τ).loc main_arg7)
abbrev A8 (c : Dev nD) : Vec Ideal S2x302 .f32 := m ((c : Thread nD τ).loc main_arg8)
abbrev A9 (c : Dev nD) : Vec Ideal S2 .f32 := m ((c : Thread nD τ).loc main_arg9)
abbrev A10 (c : Dev nD) : Vec Ideal S1x302 .f32 := m ((c : Thread nD τ).loc main_arg10)
abbrev A11 (c : Dev nD) : Vec Ideal S1 .f32 := m ((c : Thread nD τ).loc main_arg11)

/-! The sixteen input blocks at a grid point, at their literal types. -/
abbrev bX (c : Dev nD) (t : Fin cfg0.N) : Vec Ideal S2048x512 .f32 := iblk m c 0 t
abbrev bR (c : Dev nD) (t : Fin cfg0.N) : Vec Ideal S2048x1 .f32 := iblk m c 1 t
abbrev bL (c : Dev nD) (t : Fin cfg0.N) : Vec Ideal S2048x1 .i32 := iblk m c 2 t
abbrev bE (c : Dev nD) (t : Fin cfg0.N) : Vec Ideal S2048x1 .f32 := iblk m c 3 t
abbrev bW1 (c : Dev nD) (t : Fin cfg0.N) : Vec Ideal S400x512 .f32 := iblk m c 4 t
abbrev bB1 (c : Dev nD) (t : Fin cfg0.N) : Vec Ideal S1x400 .f32 := iblk m c 5 t
abbrev bW2 (c : Dev nD) (t : Fin cfg0.N) : Vec Ideal S300x400 .f32 := iblk m c 6 t
abbrev bB2 (c : Dev nD) (t : Fin cfg0.N) : Vec Ideal S1x300 .f32 := iblk m c 7 t
abbrev bWpx (c : Dev nD) (t : Fin cfg0.N) : Vec Ideal S2x300 .f32 := iblk m c 8 t
abbrev bWpc (c : Dev nD) (t : Fin cfg0.N) : Vec Ideal S1x2 .f32 := iblk m c 9 t
abbrev bWpl (c : Dev nD) (t : Fin cfg0.N) : Vec Ideal S1x2 .f32 := iblk m c 10 t
abbrev bBp (c : Dev nD) (t : Fin cfg0.N) : Vec Ideal S1x2 .f32 := iblk m c 11 t
abbrev bWbx (c : Dev nD) (t : Fin cfg0.N) : Vec Ideal S1x300 .f32 := iblk m c 12 t
abbrev bWbc (c : Dev nD) (t : Fin cfg0.N) : Vec Ideal S1x1 .f32 := iblk m c 13 t
abbrev bWbl (c : Dev nD) (t : Fin cfg0.N) : Vec Ideal S1x1 .f32 := iblk m c 14 t
abbrev bBb (c : Dev nD) (t : Fin cfg0.N) : Vec Ideal S1x1 .f32 := iblk m c 15 t

/-! What the host wrote into each re-laid array before the region, as a term of the argument it re-lays. -/

/-- The observations flattened to 131072 rows. -/
private theorem V_v0 (c : Dev nD) :
    (V m c main_v0 : Vec Ideal S131072x512 .f32) = shapeCast S131072x512 (A0 m c) shapeCasts_S64x2048x512_S131072x512 := by
  show StableHlo.after hostOps0 (fun b => m (c, b)) (Proc.devRef .tc main_v0) = _
  after_results
  rfl

/-- The rewards as a column of 131072 rows. -/
private theorem V_v1 (c : Dev nD) :
    (V m c main_v1 : Vec Ideal S131072x1 .f32) = shapeCast S131072x1 (A1 m c) shapeCasts_S64x2048_S131072x1 := by
  show StableHlo.after hostOps0 (fun b => m (c, b)) (Proc.devRef .tc main_v1) = _
  after_results
  rfl

/-- The actions as a column of 131072 rows. -/
private theorem V_v2 (c : Dev nD) :
    (V m c main_v2 : Vec Ideal S131072x1 .i32) = shapeCast S131072x1 (A2 m c) shapeCasts_S64x2048_S131072x1 := by
  show StableHlo.after hostOps0 (fun b => m (c, b)) (Proc.devRef .tc main_v2) = _
  after_results
  rfl

/-- The noise as a column of 131072 rows. -/
private theorem V_v3 (c : Dev nD) :
    (V m c main_v3 : Vec Ideal S131072x1 .f32) = shapeCast S131072x1 (A3 m c) shapeCasts_S131072_S131072x1 := by
  show StableHlo.after hostOps0 (fun b => m (c, b)) (Proc.devRef .tc main_v3) = _
  after_results
  rfl

/-- The first bias as a one-row matrix. -/
private theorem V_v4 (c : Dev nD) :
    (V m c main_v4 : Vec Ideal S1x400 .f32) = shapeCast S1x400 (A5 m c) shapeCasts_S400_S1x400 := by
  show StableHlo.after hostOps0 (fun b => m (c, b)) (Proc.devRef .tc main_v4) = _
  after_results
  rfl

/-- The second bias as a one-row matrix. -/
private theorem V_v5 (c : Dev nD) :
    (V m c main_v5 : Vec Ideal S1x300 .f32) = shapeCast S1x300 (A7 m c) shapeCasts_S300_S1x300 := by
  show StableHlo.after hostOps0 (fun b => m (c, b)) (Proc.devRef .tc main_v5) = _
  after_results
  rfl

/-- The policy bias as a one-row matrix. -/
private theorem V_v6 (c : Dev nD) :
    (V m c main_v6 : Vec Ideal S1x2 .f32) = shapeCast S1x2 (A9 m c) shapeCasts_S2_S1x2 := by
  show StableHlo.after hostOps0 (fun b => m (c, b)) (Proc.devRef .tc main_v6) = _
  after_results
  rfl

/-- The baseline bias as a one-entry matrix. -/
private theorem V_v7 (c : Dev nD) :
    (V m c main_v7 : Vec Ideal S1x1 .f32) = shapeCast S1x1 (A11 m c) shapeCasts_S1_S1x1 := by
  show StableHlo.after hostOps0 (fun b => m (c, b)) (Proc.devRef .tc main_v7) = _
  after_results
  rfl

/-- The policy weights' first 300 columns. -/
private theorem V_v8 (c : Dev nD) :
    (V m c main_v8 : Vec Ideal S2x300 .f32) = extractStridedSlice S2x300 ![0, 0] (A8 m c) slices_S2x302_S2x300_0_0 := by
  show StableHlo.after hostOps0 (fun b => m (c, b)) (Proc.devRef .tc main_v8) = _
  after_results

/-- The policy weights' column 300, turned into a row. -/
private theorem V_v10 (c : Dev nD) :
    (V m c main_v10 : Vec Ideal S1x2 .f32) = transpose S1x2 [1, 0] (extractStridedSlice S2x1 ![0, 300] (A8 m c) slices_S2x302_S2x1_0_300) transposes_S2x1_S1x2_1_0 := by
  show StableHlo.after hostOps0 (fun b => m (c, b)) (Proc.devRef .tc main_v10) = _
  after_results

/-- The policy weights' column 301, turned into a row. -/
private theorem V_v12 (c : Dev nD) :
    (V m c main_v12 : Vec Ideal S1x2 .f32) = transpose S1x2 [1, 0] (extractStridedSlice S2x1 ![0, 301] (A8 m c) slices_S2x302_S2x1_0_301) transposes_S2x1_S1x2_1_0 := by
  show StableHlo.after hostOps0 (fun b => m (c, b)) (Proc.devRef .tc main_v12) = _
  after_results

/-- The baseline weights' first 300 columns. -/
private theorem V_v13 (c : Dev nD) :
    (V m c main_v13 : Vec Ideal S1x300 .f32) = extractStridedSlice S1x300 ![0, 0] (A10 m c) slices_S1x302_S1x300_0_0 := by
  show StableHlo.after hostOps0 (fun b => m (c, b)) (Proc.devRef .tc main_v13) = _
  after_results

/-- The baseline weights' entry 300. -/
private theorem V_v15 (c : Dev nD) :
    (V m c main_v15 : Vec Ideal S1x1 .f32) = transpose S1x1 [1, 0] (extractStridedSlice S1x1 ![0, 300] (A10 m c) slices_S1x302_S1x1_0_300) transposes_S1x1_S1x1_1_0 := by
  show StableHlo.after hostOps0 (fun b => m (c, b)) (Proc.devRef .tc main_v15) = _
  after_results

/-- The baseline weights' entry 301. -/
private theorem V_v17 (c : Dev nD) :
    (V m c main_v17 : Vec Ideal S1x1 .f32) = transpose S1x1 [1, 0] (extractStridedSlice S1x1 ![0, 301] (A10 m c) slices_S1x302_S1x1_0_301) transposes_S1x1_S1x1_1_0 := by
  show StableHlo.after hostOps0 (fun b => m (c, b)) (Proc.devRef .tc main_v17) = _
  after_results

/-! The windows' block indices, decided once over the 64 grid points: the four streamed windows sit at block row `t`,
    the twelve weight windows at block (0, 0). -/

private theorem idx0 : ∀ t : Fin cfg0.N, win0_0.index t (0 : Fin 2) = t.val ∧ win0_0.index t (1 : Fin 2) = 0 :=
  (by decide +kernel : ∀ t : Fin grid0.N, _)
private theorem idx1 : ∀ t : Fin cfg0.N, win0_1.index t (0 : Fin 2) = t.val ∧ win0_1.index t (1 : Fin 2) = 0 :=
  (by decide +kernel : ∀ t : Fin grid0.N, _)
private theorem idx2 : ∀ t : Fin cfg0.N, win0_2.index t (0 : Fin 2) = t.val ∧ win0_2.index t (1 : Fin 2) = 0 :=
  (by decide +kernel : ∀ t : Fin grid0.N, _)
private theorem idx3 : ∀ t : Fin cfg0.N, win0_3.index t (0 : Fin 2) = t.val ∧ win0_3.index t (1 : Fin 2) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)
private theorem idx6 : ∀ t : Fin cfg0.N, win0_6.index t (0 : Fin 2) = 0 ∧ win0_6.index t (1 : Fin 2) = 0 :=
  (by decide +kernel : ∀ t : Fin grid0.N, _)
private theorem idx7 : ∀ t : Fin cfg0.N, win0_7.index t (0 : Fin 2) = 0 ∧ win0_7.index t (1 : Fin 2) = 0 :=
  (by decide +kernel : ∀ t : Fin grid0.N, _)
private theorem idx8 : ∀ t : Fin cfg0.N, win0_8.index t (0 : Fin 2) = 0 ∧ win0_8.index t (1 : Fin 2) = 0 :=
  (by decide +kernel : ∀ t : Fin grid0.N, _)
private theorem idx9 : ∀ t : Fin cfg0.N, win0_9.index t (0 : Fin 2) = 0 ∧ win0_9.index t (1 : Fin 2) = 0 :=
  (by decide +kernel : ∀ t : Fin grid0.N, _)
private theorem idx10 : ∀ t : Fin cfg0.N, win0_10.index t (0 : Fin 2) = 0 ∧ win0_10.index t (1 : Fin 2) = 0 :=
  (by decide +kernel : ∀ t : Fin grid0.N, _)
private theorem idx11 : ∀ t : Fin cfg0.N, win0_11.index t (0 : Fin 2) = 0 ∧ win0_11.index t (1 : Fin 2) = 0 :=
  (by decide +kernel : ∀ t : Fin grid0.N, _)
private theorem idx12 : ∀ t : Fin cfg0.N, win0_12.index t (0 : Fin 2) = 0 ∧ win0_12.index t (1 : Fin 2) = 0 :=
  (by decide +kernel : ∀ t : Fin grid0.N, _)
private theorem idx13 : ∀ t : Fin cfg0.N, win0_13.index t (0 : Fin 2) = 0 ∧ win0_13.index t (1 : Fin 2) = 0 :=
  (by decide +kernel : ∀ t : Fin grid0.N, _)
private theorem idx14 : ∀ t : Fin cfg0.N, win0_14.index t (0 : Fin 2) = 0 ∧ win0_14.index t (1 : Fin 2) = 0 :=
  (by decide +kernel : ∀ t : Fin grid0.N, _)
private theorem idx15 : ∀ t : Fin cfg0.N, win0_15.index t (0 : Fin 2) = 0 ∧ win0_15.index t (1 : Fin 2) = 0 :=
  (by decide +kernel : ∀ t : Fin grid0.N, _)

/-! Each block entry as an entry of an argument array. -/

/-- Row `p` of the observation block at point `t` is row `p` of step `t`. -/
theorem bX_apply (c : Dev nD) (t : Fin cfg0.N) (p : Fin 2048) (k : Fin 512) :
    bX m c t (ix2 p k) = A0 m c (ix3 (step t) p k) := by
  obtain ⟨e0, e1⟩ := idx0 t
  have hN : cfg0.N = 64 := N_0
  have ht := t.isLt
  have h0 : ((cfg0.win 0).blk t).view.emb (ix2 p k)
      = (ix2 (⟨t.val * 2048 + p.val, by omega⟩ : Fin 131072) k : S131072x512.Idx) := by
    funext ax; apply Fin.ext
    match ax with
    | ⟨0, _⟩ => show win0_0.index t (0 : Fin 2) * 2048 + 1 * p.val = t.val * 2048 + p.val; omega
    | ⟨1, _⟩ => show win0_0.index t (1 : Fin 2) * 512 + 1 * k.val = k.val; omega
  show (V m c main_v0 : Vec Ideal S131072x512 .f32) (((cfg0.win 0).blk t).view.emb (ix2 p k)) = _
  rw [h0, V_v0]
  refine shapeCast_apply _ _ _ _ ?_
  rw [Shape.rowMajor_val_two, Shape.rowMajor_val_three]
  show (t.val * 2048 + p.val) * 512 + k.val = (t.val * 2048 + p.val) * 512 + k.val
  rfl
theorem bR_apply (c : Dev nD) (t : Fin cfg0.N) (p : Fin 2048) :
    bR m c t (ix2 p (0 : Fin 1)) = A1 m c (ix2 (step t) p) := by
  obtain ⟨e0, e1⟩ := idx1 t
  have hN : cfg0.N = 64 := N_0
  have ht := t.isLt
  have h0 : ((cfg0.win 1).blk t).view.emb (ix2 p (0 : Fin 1))
      = (ix2 (⟨t.val * 2048 + p.val, by omega⟩ : Fin 131072) (0 : Fin 1) : S131072x1.Idx) := by
    funext ax; apply Fin.ext
    match ax with
    | ⟨0, _⟩ => show win0_1.index t (0 : Fin 2) * 2048 + 1 * p.val = t.val * 2048 + p.val; omega
    | ⟨1, _⟩ => show win0_1.index t (1 : Fin 2) * 1 + 1 * 0 = 0; omega
  show (V m c main_v1 : Vec Ideal S131072x1 .f32) (((cfg0.win 1).blk t).view.emb (ix2 p (0 : Fin 1))) = _
  rw [h0, V_v1]
  refine shapeCast_apply _ _ _ _ ?_
  rw [Shape.rowMajor_val_two, Shape.rowMajor_val_two]
  show t.val * 2048 + p.val = (t.val * 2048 + p.val) * 1 + 0
  omega
theorem bL_apply (c : Dev nD) (t : Fin cfg0.N) (p : Fin 2048) :
    bL m c t (ix2 p (0 : Fin 1)) = A2 m c (ix2 (step t) p) := by
  obtain ⟨e0, e1⟩ := idx2 t
  have hN : cfg0.N = 64 := N_0
  have ht := t.isLt
  have h0 : ((cfg0.win 2).blk t).view.emb (ix2 p (0 : Fin 1))
      = (ix2 (⟨t.val * 2048 + p.val, by omega⟩ : Fin 131072) (0 : Fin 1) : S131072x1.Idx) := by
    funext ax; apply Fin.ext
    match ax with
    | ⟨0, _⟩ => show win0_2.index t (0 : Fin 2) * 2048 + 1 * p.val = t.val * 2048 + p.val; omega
    | ⟨1, _⟩ => show win0_2.index t (1 : Fin 2) * 1 + 1 * 0 = 0; omega
  show (V m c main_v2 : Vec Ideal S131072x1 .i32) (((cfg0.win 2).blk t).view.emb (ix2 p (0 : Fin 1))) = _
  rw [h0, V_v2]
  refine shapeCast_apply _ _ _ _ ?_
  rw [Shape.rowMajor_val_two, Shape.rowMajor_val_two]
  show t.val * 2048 + p.val = (t.val * 2048 + p.val) * 1 + 0
  omega
theorem bE_apply (c : Dev nD) (t : Fin cfg0.N) (p : Fin 2048) :
    bE m c t (ix2 p (0 : Fin 1)) = A3 m c (ix1 (Mlp.flatRow (step t) p)) := by
  obtain ⟨e0, e1⟩ := idx3 t
  have hN : cfg0.N = 64 := N_0
  have ht := t.isLt
  have h0 : ((cfg0.win 3).blk t).view.emb (ix2 p (0 : Fin 1))
      = (ix2 (⟨t.val * 2048 + p.val, by omega⟩ : Fin 131072) (0 : Fin 1) : S131072x1.Idx) := by
    funext ax; apply Fin.ext
    match ax with
    | ⟨0, _⟩ => show win0_3.index t (0 : Fin 2) * 2048 + 1 * p.val = t.val * 2048 + p.val; omega
    | ⟨1, _⟩ => show win0_3.index t (1 : Fin 2) * 1 + 1 * 0 = 0; omega
  show (V m c main_v3 : Vec Ideal S131072x1 .f32) (((cfg0.win 3).blk t).view.emb (ix2 p (0 : Fin 1))) = _
  rw [h0, V_v3]
  refine shapeCast_apply _ _ _ _ ?_
  rw [Shape.rowMajor_val_one, Shape.rowMajor_val_two]
  show t.val * 2048 + p.val = (t.val * 2048 + p.val) * 1 + 0
  omega
theorem bW1_apply (c : Dev nD) (t : Fin cfg0.N) (a : Fin 400) (k : Fin 512) :
    bW1 m c t (ix2 a k) = A4 m c (ix2 a k) := by
  obtain ⟨e0, e1⟩ := idx4 t
  have h0 : ((cfg0.win 4).blk t).view.emb (ix2 a k) = (ix2 a k : S400x512.Idx) := by
    funext ax; apply Fin.ext
    match ax with
    | ⟨0, _⟩ => show win0_4.index t (0 : Fin 2) * 400 + 1 * a.val = a.val; omega
    | ⟨1, _⟩ => show win0_4.index t (1 : Fin 2) * 512 + 1 * k.val = k.val; omega
  show (V m c main_arg4 : Vec Ideal S400x512 .f32) (((cfg0.win 4).blk t).view.emb (ix2 a k)) = _
  rw [h0, V_main_arg4]
theorem bB1_apply (c : Dev nD) (t : Fin cfg0.N) (a : Fin 400) :
    bB1 m c t (ix2 (0 : Fin 1) a) = A5 m c (ix1 a) := by
  obtain ⟨e0, e1⟩ := idx5 t
  have h0 : ((cfg0.win 5).blk t).view.emb (ix2 (0 : Fin 1) a) = (ix2 (0 : Fin 1) a : S1x400.Idx) := by
    funext ax; apply Fin.ext
    match ax with
    | ⟨0, _⟩ => show win0_5.index t (0 : Fin 2) * 1 + 1 * 0 = 0; omega
    | ⟨1, _⟩ => show win0_5.index t (1 : Fin 2) * 400 + 1 * a.val = a.val; omega
  show (V m c main_v4 : Vec Ideal S1x400 .f32) (((cfg0.win 5).blk t).view.emb (ix2 (0 : Fin 1) a)) = _
  rw [h0, V_v4]
  refine shapeCast_apply _ _ _ _ ?_
  rw [Shape.rowMajor_val_one, Shape.rowMajor_val_two]
  show a.val = 0 * 400 + a.val
  omega
theorem bW2_apply (c : Dev nD) (t : Fin cfg0.N) (d : Fin 300) (a : Fin 400) :
    bW2 m c t (ix2 d a) = A6 m c (ix2 d a) := by
  obtain ⟨e0, e1⟩ := idx6 t
  have h0 : ((cfg0.win 6).blk t).view.emb (ix2 d a) = (ix2 d a : S300x400.Idx) := by
    funext ax; apply Fin.ext
    match ax with
    | ⟨0, _⟩ => show win0_6.index t (0 : Fin 2) * 300 + 1 * d.val = d.val; omega
    | ⟨1, _⟩ => show win0_6.index t (1 : Fin 2) * 400 + 1 * a.val = a.val; omega
  show (V m c main_arg6 : Vec Ideal S300x400 .f32) (((cfg0.win 6).blk t).view.emb (ix2 d a)) = _
  rw [h0, V_main_arg6]
theorem bB2_apply (c : Dev nD) (t : Fin cfg0.N) (d : Fin 300) :
    bB2 m c t (ix2 (0 : Fin 1) d) = A7 m c (ix1 d) := by
  obtain ⟨e0, e1⟩ := idx7 t
  have h0 : ((cfg0.win 7).blk t).view.emb (ix2 (0 : Fin 1) d) = (ix2 (0 : Fin 1) d : S1x300.Idx) := by
    funext ax; apply Fin.ext
    match ax with
    | ⟨0, _⟩ => show win0_7.index t (0 : Fin 2) * 1 + 1 * 0 = 0; omega
    | ⟨1, _⟩ => show win0_7.index t (1 : Fin 2) * 300 + 1 * d.val = d.val; omega
  show (V m c main_v5 : Vec Ideal S1x300 .f32) (((cfg0.win 7).blk t).view.emb (ix2 (0 : Fin 1) d)) = _
  rw [h0, V_v5]
  refine shapeCast_apply _ _ _ _ ?_
  rw [Shape.rowMajor_val_one, Shape.rowMajor_val_two]
  show d.val = 0 * 300 + d.val
  omega
theorem bWpx_apply (c : Dev nD) (t : Fin cfg0.N) (j : Fin 2) (d : Fin 300) :
    bWpx m c t (ix2 j d) = A8 m c (ix2 j (⟨d.val, by omega⟩ : Fin 302)) := by
  obtain ⟨e0, e1⟩ := idx8 t
  have h0 : ((cfg0.win 8).blk t).view.emb (ix2 j d) = (ix2 j d : S2x300.Idx) := by
    funext ax; apply Fin.ext
    match ax with
    | ⟨0, _⟩ => show win0_8.index t (0 : Fin 2) * 2 + 1 * j.val = j.val; omega
    | ⟨1, _⟩ => show win0_8.index t (1 : Fin 2) * 300 + 1 * d.val = d.val; omega
  show (V m c main_v8 : Vec Ideal S2x300 .f32) (((cfg0.win 8).blk t).view.emb (ix2 j d)) = _
  rw [h0, V_v8]
  refine extractStridedSlice_apply _ _ _ _ _ ?_
  intro ax
  match ax with
  | ⟨0, _⟩ => show j.val = 0 + j.val; omega
  | ⟨1, _⟩ => show d.val = 0 + d.val; omega
theorem bWpc_apply (c : Dev nD) (t : Fin cfg0.N) (j : Fin 2) :
    bWpc m c t (ix2 (0 : Fin 1) j) = A8 m c (ix2 j (⟨300, by omega⟩ : Fin 302)) := by
  obtain ⟨e0, e1⟩ := idx9 t
  have h0 : ((cfg0.win 9).blk t).view.emb (ix2 (0 : Fin 1) j) = (ix2 (0 : Fin 1) j : S1x2.Idx) := by
    funext ax; apply Fin.ext
    match ax with
    | ⟨0, _⟩ => show win0_9.index t (0 : Fin 2) * 1 + 1 * 0 = 0; omega
    | ⟨1, _⟩ => show win0_9.index t (1 : Fin 2) * 2 + 1 * j.val = j.val; omega
  show (V m c main_v10 : Vec Ideal S1x2 .f32) (((cfg0.win 9).blk t).view.emb (ix2 (0 : Fin 1) j)) = _
  rw [h0, V_v10]
  rw [transpose_apply _ _ _ _ (ix2 j (0 : Fin 1) : S2x1.Idx) (by
    intro ax
    match ax with
    | ⟨0, _⟩ => rfl
    | ⟨1, _⟩ => rfl)]
  refine extractStridedSlice_apply _ _ _ _ _ ?_
  intro ax
  match ax with
  | ⟨0, _⟩ => show j.val = 0 + j.val; omega
  | ⟨1, _⟩ => show 300 = 300 + 0; rfl
theorem bWpl_apply (c : Dev nD) (t : Fin cfg0.N) (j : Fin 2) :
    bWpl m c t (ix2 (0 : Fin 1) j) = A8 m c (ix2 j (⟨301, by omega⟩ : Fin 302)) := by
  obtain ⟨e0, e1⟩ := idx10 t
  have h0 : ((cfg0.win 10).blk t).view.emb (ix2 (0 : Fin 1) j) = (ix2 (0 : Fin 1) j : S1x2.Idx) := by
    funext ax; apply Fin.ext
    match ax with
    | ⟨0, _⟩ => show win0_10.index t (0 : Fin 2) * 1 + 1 * 0 = 0; omega
    | ⟨1, _⟩ => show win0_10.index t (1 : Fin 2) * 2 + 1 * j.val = j.val; omega
  show (V m c main_v12 : Vec Ideal S1x2 .f32) (((cfg0.win 10).blk t).view.emb (ix2 (0 : Fin 1) j)) = _
  rw [h0, V_v12]
  rw [transpose_apply _ _ _ _ (ix2 j (0 : Fin 1) : S2x1.Idx) (by
    intro ax
    match ax with
    | ⟨0, _⟩ => rfl
    | ⟨1, _⟩ => rfl)]
  refine extractStridedSlice_apply _ _ _ _ _ ?_
  intro ax
  match ax with
  | ⟨0, _⟩ => show j.val = 0 + j.val; omega
  | ⟨1, _⟩ => show 301 = 301 + 0; rfl
theorem bBp_apply (c : Dev nD) (t : Fin cfg0.N) (j : Fin 2) :
    bBp m c t (ix2 (0 : Fin 1) j) = A9 m c (ix1 j) := by
  obtain ⟨e0, e1⟩ := idx11 t
  have h0 : ((cfg0.win 11).blk t).view.emb (ix2 (0 : Fin 1) j) = (ix2 (0 : Fin 1) j : S1x2.Idx) := by
    funext ax; apply Fin.ext
    match ax with
    | ⟨0, _⟩ => show win0_11.index t (0 : Fin 2) * 1 + 1 * 0 = 0; omega
    | ⟨1, _⟩ => show win0_11.index t (1 : Fin 2) * 2 + 1 * j.val = j.val; omega
  show (V m c main_v6 : Vec Ideal S1x2 .f32) (((cfg0.win 11).blk t).view.emb (ix2 (0 : Fin 1) j)) = _
  rw [h0, V_v6]
  refine shapeCast_apply _ _ _ _ ?_
  rw [Shape.rowMajor_val_one, Shape.rowMajor_val_two]
  show j.val = 0 * 2 + j.val
  omega
theorem bWbx_apply (c : Dev nD) (t : Fin cfg0.N) (d : Fin 300) :
    bWbx m c t (ix2 (0 : Fin 1) d) = A10 m c (ix2 (0 : Fin 1) (⟨d.val, by omega⟩ : Fin 302)) := by
  obtain ⟨e0, e1⟩ := idx12 t
  have h0 : ((cfg0.win 12).blk t).view.emb (ix2 (0 : Fin 1) d) = (ix2 (0 : Fin 1) d : S1x300.Idx) := by
    funext ax; apply Fin.ext
    match ax with
    | ⟨0, _⟩ => show win0_12.index t (0 : Fin 2) * 1 + 1 * 0 = 0; omega
    | ⟨1, _⟩ => show win0_12.index t (1 : Fin 2) * 300 + 1 * d.val = d.val; omega
  show (V m c main_v13 : Vec Ideal S1x300 .f32) (((cfg0.win 12).blk t).view.emb (ix2 (0 : Fin 1) d)) = _
  rw [h0, V_v13]
  refine extractStridedSlice_apply _ _ _ _ _ ?_
  intro ax
  match ax with
  | ⟨0, _⟩ => show 0 = 0 + 0; rfl
  | ⟨1, _⟩ => show d.val = 0 + d.val; omega
theorem bWbc_apply (c : Dev nD) (t : Fin cfg0.N) :
    bWbc m c t (ix2 (0 : Fin 1) (0 : Fin 1)) = A10 m c (ix2 (0 : Fin 1) (⟨300, by omega⟩ : Fin 302)) := by
  obtain ⟨e0, e1⟩ := idx13 t
  have h0 : ((cfg0.win 13).blk t).view.emb (ix2 (0 : Fin 1) (0 : Fin 1)) = (ix2 (0 : Fin 1) (0 : Fin 1) : S1x1.Idx) := by
    funext ax; apply Fin.ext
    match ax with
    | ⟨0, _⟩ => show win0_13.index t (0 : Fin 2) * 1 + 1 * 0 = 0; omega
    | ⟨1, _⟩ => show win0_13.index t (1 : Fin 2) * 1 + 1 * 0 = 0; omega
  show (V m c main_v15 : Vec Ideal S1x1 .f32) (((cfg0.win 13).blk t).view.emb (ix2 (0 : Fin 1) (0 : Fin 1))) = _
  rw [h0, V_v15]
  rw [transpose_apply _ _ _ _ (ix2 (0 : Fin 1) (0 : Fin 1) : S1x1.Idx) (by
    intro ax
    match ax with
    | ⟨0, _⟩ => rfl
    | ⟨1, _⟩ => rfl)]
  refine extractStridedSlice_apply _ _ _ _ _ ?_
  intro ax
  match ax with
  | ⟨0, _⟩ => show 0 = 0 + 0; rfl
  | ⟨1, _⟩ => show 300 = 300 + 0; rfl
theorem bWbl_apply (c : Dev nD) (t : Fin cfg0.N) :
    bWbl m c t (ix2 (0 : Fin 1) (0 : Fin 1)) = A10 m c (ix2 (0 : Fin 1) (⟨301, by omega⟩ : Fin 302)) := by
  obtain ⟨e0, e1⟩ := idx14 t
  have h0 : ((cfg0.win 14).blk t).view.emb (ix2 (0 : Fin 1) (0 : Fin 1)) = (ix2 (0 : Fin 1) (0 : Fin 1) : S1x1.Idx) := by
    funext ax; apply Fin.ext
    match ax with
    | ⟨0, _⟩ => show win0_14.index t (0 : Fin 2) * 1 + 1 * 0 = 0; omega
    | ⟨1, _⟩ => show win0_14.index t (1 : Fin 2) * 1 + 1 * 0 = 0; omega
  show (V m c main_v17 : Vec Ideal S1x1 .f32) (((cfg0.win 14).blk t).view.emb (ix2 (0 : Fin 1) (0 : Fin 1))) = _
  rw [h0, V_v17]
  rw [transpose_apply _ _ _ _ (ix2 (0 : Fin 1) (0 : Fin 1) : S1x1.Idx) (by
    intro ax
    match ax with
    | ⟨0, _⟩ => rfl
    | ⟨1, _⟩ => rfl)]
  refine extractStridedSlice_apply _ _ _ _ _ ?_
  intro ax
  match ax with
  | ⟨0, _⟩ => show 0 = 0 + 0; rfl
  | ⟨1, _⟩ => show 301 = 301 + 0; rfl
theorem bBb_apply (c : Dev nD) (t : Fin cfg0.N) :
    bBb m c t (ix2 (0 : Fin 1) (0 : Fin 1)) = A11 m c (ix1 (0 : Fin 1)) := by
  obtain ⟨e0, e1⟩ := idx15 t
  have h0 : ((cfg0.win 15).blk t).view.emb (ix2 (0 : Fin 1) (0 : Fin 1)) = (ix2 (0 : Fin 1) (0 : Fin 1) : S1x1.Idx) := by
    funext ax; apply Fin.ext
    match ax with
    | ⟨0, _⟩ => show win0_15.index t (0 : Fin 2) * 1 + 1 * 0 = 0; omega
    | ⟨1, _⟩ => show win0_15.index t (1 : Fin 2) * 1 + 1 * 0 = 0; omega
  show (V m c main_v7 : Vec Ideal S1x1 .f32) (((cfg0.win 15).blk t).view.emb (ix2 (0 : Fin 1) (0 : Fin 1))) = _
  rw [h0, V_v7]
  refine shapeCast_apply _ _ _ _ ?_
  rw [Shape.rowMajor_val_one, Shape.rowMajor_val_two]
  show 0 = 0 * 1 + 0
  rfl

end Cert.Mlp.Kernel

end
-- ==== Proof.KernelRow.lean ====
/-
  The kernel body's arithmetic on one block, read at an entry.

  The body's result block [2048, 4] is one pure term of the blocks it loads (the generated payloads). Read at row `p`
  and column `q` it is the network's row function of row `p` of the streamed blocks and of the resident weight blocks:
  the two matrix products into a zero accumulator are plain sums over the shared axis, the narrowing to bf16 in front of
  them is the identity on extended reals, the transposes and broadcasts only re-index, and the final concatenation picks
  the policy pair, the baseline or the action by the column.
-/
import proofs.«114537_j53635551592612_1_alg».proof.Proof.Gen.KernelIdeal.Skeleton
import proofs.«114537_j53635551592612_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp.KernelRow

open Cert.KernelIdeal Cert.KernelIdeal.Gen Idealize.ShloMosaic Idealize.ShloMosaic.ValueIdx

/-! The product of a 2048 × 512 block with a 512 × 400 block into a zero accumulator: the operand indices by coordinate,
    then the sum over the shared axis. -/
private theorem mmA_lhs0 (i : S2048x400.Idx) (q : dot_S2048x512_S512x400_S2048x400_1_0_0_1_n_n.contr.Idx) : (dot_S2048x512_S512x400_S2048x400_1_0_0_1_n_n.lhsIdx i q 0).val = (i 0).val := by
  unfold DotDims.lhsIdx
  rw [dif_neg (show ¬(0 : Fin S2048x512.rank) ∈ dot_S2048x512_S512x400_S2048x400_1_0_0_1_n_n.lhsBatch by decide), dif_pos (show (0 : Fin S2048x512.rank) ∈ dot_S2048x512_S512x400_S2048x400_1_0_0_1_n_n.lhsNonContracting by decide)]
  rfl
private theorem mmA_lhs1 (i : S2048x400.Idx) (q : dot_S2048x512_S512x400_S2048x400_1_0_0_1_n_n.contr.Idx) : (dot_S2048x512_S512x400_S2048x400_1_0_0_1_n_n.lhsIdx i q 1).val = (q ⟨0, by decide⟩).val :=
  dot_S2048x512_S512x400_S2048x400_1_0_0_1_n_n.lhsIdx_val_of_single rfl i q
private theorem mmA_rhs0 (i : S2048x400.Idx) (q : dot_S2048x512_S512x400_S2048x400_1_0_0_1_n_n.contr.Idx) : (dot_S2048x512_S512x400_S2048x400_1_0_0_1_n_n.rhsIdx i q 0).val = (q ⟨0, by decide⟩).val :=
  dot_S2048x512_S512x400_S2048x400_1_0_0_1_n_n.rhsIdx_val_of_single rfl i q
private theorem mmA_rhs1 (i : S2048x400.Idx) (q : dot_S2048x512_S512x400_S2048x400_1_0_0_1_n_n.contr.Idx) : (dot_S2048x512_S512x400_S2048x400_1_0_0_1_n_n.rhsIdx i q 1).val = (i 1).val := by
  unfold DotDims.rhsIdx
  rw [dif_neg (show ¬(1 : Fin S512x400.rank) ∈ dot_S2048x512_S512x400_S2048x400_1_0_0_1_n_n.rhsBatch by decide), dif_pos (show (1 : Fin S512x400.rank) ∈ dot_S2048x512_S512x400_S2048x400_1_0_0_1_n_n.rhsNonContracting by decide)]
  rfl
private theorem mmA_apply (A : FVec Ideal S2048x512 .bf16) (B : FVec Ideal S512x400 .bf16) (p : Fin 2048) (c : Fin 400) :
    matmul dot_S2048x512_S512x400_S2048x400_1_0_0_1_n_n none A B (constant (F := Ideal) S2048x400 .f32 0x00000000#32) (ix2 p c)
      = ∑ k : Fin 512, A (ix2 p k) * B (ix2 k c) := by
  refine (Ideal.matmul_constant_zero_apply dot_S2048x512_S512x400_S2048x400_1_0_0_1_n_n none A B (ix2 p c)).trans ?_
  rw [← Equiv.sum_comp (contrEquiv1 dot_S2048x512_S512x400_S2048x400_1_0_0_1_n_n 512 rfl rfl).symm]
  refine Finset.sum_congr rfl fun k _ => ?_
  have hk := contrEquiv1_symm_val dot_S2048x512_S512x400_S2048x400_1_0_0_1_n_n 512 rfl rfl k
  have el : dot_S2048x512_S512x400_S2048x400_1_0_0_1_n_n.lhsIdx (ix2 p c) ((contrEquiv1 dot_S2048x512_S512x400_S2048x400_1_0_0_1_n_n 512 rfl rfl).symm k) = ix2 p k := funext fun a => Fin.ext (by
    match a with
    | ⟨0, _⟩ => exact mmA_lhs0 _ _
    | ⟨1, _⟩ => exact (mmA_lhs1 _ _).trans hk)
  have er : dot_S2048x512_S512x400_S2048x400_1_0_0_1_n_n.rhsIdx (ix2 p c) ((contrEquiv1 dot_S2048x512_S512x400_S2048x400_1_0_0_1_n_n 512 rfl rfl).symm k) = ix2 k c := funext fun a => Fin.ext (by
    match a with
    | ⟨0, _⟩ => exact (mmA_rhs0 _ _).trans hk
    | ⟨1, _⟩ => exact mmA_rhs1 _ _)
  rw [el, er]

/-! The product of a 2048 × 400 block with a 400 × 300 block into a zero accumulator: the operand indices by coordinate,
    then the sum over the shared axis. -/
private theorem mmB_lhs0 (i : S2048x300.Idx) (q : dot_S2048x400_S400x300_S2048x300_1_0_0_1_n_n.contr.Idx) : (dot_S2048x400_S400x300_S2048x300_1_0_0_1_n_n.lhsIdx i q 0).val = (i 0).val := by
  unfold DotDims.lhsIdx
  rw [dif_neg (show ¬(0 : Fin S2048x400.rank) ∈ dot_S2048x400_S400x300_S2048x300_1_0_0_1_n_n.lhsBatch by decide), dif_pos (show (0 : Fin S2048x400.rank) ∈ dot_S2048x400_S400x300_S2048x300_1_0_0_1_n_n.lhsNonContracting by decide)]
  rfl
private theorem mmB_lhs1 (i : S2048x300.Idx) (q : dot_S2048x400_S400x300_S2048x300_1_0_0_1_n_n.contr.Idx) : (dot_S2048x400_S400x300_S2048x300_1_0_0_1_n_n.lhsIdx i q 1).val = (q ⟨0, by decide⟩).val :=
  dot_S2048x400_S400x300_S2048x300_1_0_0_1_n_n.lhsIdx_val_of_single rfl i q
private theorem mmB_rhs0 (i : S2048x300.Idx) (q : dot_S2048x400_S400x300_S2048x300_1_0_0_1_n_n.contr.Idx) : (dot_S2048x400_S400x300_S2048x300_1_0_0_1_n_n.rhsIdx i q 0).val = (q ⟨0, by decide⟩).val :=
  dot_S2048x400_S400x300_S2048x300_1_0_0_1_n_n.rhsIdx_val_of_single rfl i q
private theorem mmB_rhs1 (i : S2048x300.Idx) (q : dot_S2048x400_S400x300_S2048x300_1_0_0_1_n_n.contr.Idx) : (dot_S2048x400_S400x300_S2048x300_1_0_0_1_n_n.rhsIdx i q 1).val = (i 1).val := by
  unfold DotDims.rhsIdx
  rw [dif_neg (show ¬(1 : Fin S400x300.rank) ∈ dot_S2048x400_S400x300_S2048x300_1_0_0_1_n_n.rhsBatch by decide), dif_pos (show (1 : Fin S400x300.rank) ∈ dot_S2048x400_S400x300_S2048x300_1_0_0_1_n_n.rhsNonContracting by decide)]
  rfl
private theorem mmB_apply (A : FVec Ideal S2048x400 .bf16) (B : FVec Ideal S400x300 .bf16) (p : Fin 2048) (c : Fin 300) :
    matmul dot_S2048x400_S400x300_S2048x300_1_0_0_1_n_n none A B (constant (F := Ideal) S2048x300 .f32 0x00000000#32) (ix2 p c)
      = ∑ k : Fin 400, A (ix2 p k) * B (ix2 k c) := by
  refine (Ideal.matmul_constant_zero_apply dot_S2048x400_S400x300_S2048x300_1_0_0_1_n_n none A B (ix2 p c)).trans ?_
  rw [← Equiv.sum_comp (contrEquiv1 dot_S2048x400_S400x300_S2048x300_1_0_0_1_n_n 400 rfl rfl).symm]
  refine Finset.sum_congr rfl fun k _ => ?_
  have hk := contrEquiv1_symm_val dot_S2048x400_S400x300_S2048x300_1_0_0_1_n_n 400 rfl rfl k
  have el : dot_S2048x400_S400x300_S2048x300_1_0_0_1_n_n.lhsIdx (ix2 p c) ((contrEquiv1 dot_S2048x400_S400x300_S2048x300_1_0_0_1_n_n 400 rfl rfl).symm k) = ix2 p k := funext fun a => Fin.ext (by
    match a with
    | ⟨0, _⟩ => exact mmB_lhs0 _ _
    | ⟨1, _⟩ => exact (mmB_lhs1 _ _).trans hk)
  have er : dot_S2048x400_S400x300_S2048x300_1_0_0_1_n_n.rhsIdx (ix2 p c) ((contrEquiv1 dot_S2048x400_S400x300_S2048x300_1_0_0_1_n_n 400 rfl rfl).symm k) = ix2 k c := funext fun a => Fin.ext (by
    match a with
    | ⟨0, _⟩ => exact (mmB_rhs0 _ _).trans hk
    | ⟨1, _⟩ => exact mmB_rhs1 _ _)
  rw [el, er]

/-! The product of a 2048 × 300 block with a 300 × 2 block into a zero accumulator: the operand indices by coordinate,
    then the sum over the shared axis. -/
private theorem mmC_lhs0 (i : S2048x2.Idx) (q : dot_S2048x300_S300x2_S2048x2_1_0_0_1_n_n.contr.Idx) : (dot_S2048x300_S300x2_S2048x2_1_0_0_1_n_n.lhsIdx i q 0).val = (i 0).val := by
  unfold DotDims.lhsIdx
  rw [dif_neg (show ¬(0 : Fin S2048x300.rank) ∈ dot_S2048x300_S300x2_S2048x2_1_0_0_1_n_n.lhsBatch by decide), dif_pos (show (0 : Fin S2048x300.rank) ∈ dot_S2048x300_S300x2_S2048x2_1_0_0_1_n_n.lhsNonContracting by decide)]
  rfl
private theorem mmC_lhs1 (i : S2048x2.Idx) (q : dot_S2048x300_S300x2_S2048x2_1_0_0_1_n_n.contr.Idx) : (dot_S2048x300_S300x2_S2048x2_1_0_0_1_n_n.lhsIdx i q 1).val = (q ⟨0, by decide⟩).val :=
  dot_S2048x300_S300x2_S2048x2_1_0_0_1_n_n.lhsIdx_val_of_single rfl i q
private theorem mmC_rhs0 (i : S2048x2.Idx) (q : dot_S2048x300_S300x2_S2048x2_1_0_0_1_n_n.contr.Idx) : (dot_S2048x300_S300x2_S2048x2_1_0_0_1_n_n.rhsIdx i q 0).val = (q ⟨0, by decide⟩).val :=
  dot_S2048x300_S300x2_S2048x2_1_0_0_1_n_n.rhsIdx_val_of_single rfl i q
private theorem mmC_rhs1 (i : S2048x2.Idx) (q : dot_S2048x300_S300x2_S2048x2_1_0_0_1_n_n.contr.Idx) : (dot_S2048x300_S300x2_S2048x2_1_0_0_1_n_n.rhsIdx i q 1).val = (i 1).val := by
  unfold DotDims.rhsIdx
  rw [dif_neg (show ¬(1 : Fin S300x2.rank) ∈ dot_S2048x300_S300x2_S2048x2_1_0_0_1_n_n.rhsBatch by decide), dif_pos (show (1 : Fin S300x2.rank) ∈ dot_S2048x300_S300x2_S2048x2_1_0_0_1_n_n.rhsNonContracting by decide)]
  rfl
private theorem mmC_apply (A : FVec Ideal S2048x300 .f32) (B : FVec Ideal S300x2 .f32) (p : Fin 2048) (c : Fin 2) :
    matmul dot_S2048x300_S300x2_S2048x2_1_0_0_1_n_n none A B (constant (F := Ideal) S2048x2 .f32 0x00000000#32) (ix2 p c)
      = ∑ k : Fin 300, A (ix2 p k) * B (ix2 k c) := by
  refine (Ideal.matmul_constant_zero_apply dot_S2048x300_S300x2_S2048x2_1_0_0_1_n_n none A B (ix2 p c)).trans ?_
  rw [← Equiv.sum_comp (contrEquiv1 dot_S2048x300_S300x2_S2048x2_1_0_0_1_n_n 300 rfl rfl).symm]
  refine Finset.sum_congr rfl fun k _ => ?_
  have hk := contrEquiv1_symm_val dot_S2048x300_S300x2_S2048x2_1_0_0_1_n_n 300 rfl rfl k
  have el : dot_S2048x300_S300x2_S2048x2_1_0_0_1_n_n.lhsIdx (ix2 p c) ((contrEquiv1 dot_S2048x300_S300x2_S2048x2_1_0_0_1_n_n 300 rfl rfl).symm k) = ix2 p k := funext fun a => Fin.ext (by
    match a with
    | ⟨0, _⟩ => exact mmC_lhs0 _ _
    | ⟨1, _⟩ => exact (mmC_lhs1 _ _).trans hk)
  have er : dot_S2048x300_S300x2_S2048x2_1_0_0_1_n_n.rhsIdx (ix2 p c) ((contrEquiv1 dot_S2048x300_S300x2_S2048x2_1_0_0_1_n_n 300 rfl rfl).symm k) = ix2 k c := funext fun a => Fin.ext (by
    match a with
    | ⟨0, _⟩ => exact (mmC_rhs0 _ _).trans hk
    | ⟨1, _⟩ => exact mmC_rhs1 _ _)
  rw [el, er]

/-! The product of a 2048 × 300 block with a 300 × 1 block into a zero accumulator: the operand indices by coordinate,
    then the sum over the shared axis. -/
private theorem mmD_lhs0 (i : S2048x1.Idx) (q : dot_S2048x300_S300x1_S2048x1_1_0_0_1_n_n.contr.Idx) : (dot_S2048x300_S300x1_S2048x1_1_0_0_1_n_n.lhsIdx i q 0).val = (i 0).val := by
  unfold DotDims.lhsIdx
  rw [dif_neg (show ¬(0 : Fin S2048x300.rank) ∈ dot_S2048x300_S300x1_S2048x1_1_0_0_1_n_n.lhsBatch by decide), dif_pos (show (0 : Fin S2048x300.rank) ∈ dot_S2048x300_S300x1_S2048x1_1_0_0_1_n_n.lhsNonContracting by decide)]
  rfl
private theorem mmD_lhs1 (i : S2048x1.Idx) (q : dot_S2048x300_S300x1_S2048x1_1_0_0_1_n_n.contr.Idx) : (dot_S2048x300_S300x1_S2048x1_1_0_0_1_n_n.lhsIdx i q 1).val = (q ⟨0, by decide⟩).val :=
  dot_S2048x300_S300x1_S2048x1_1_0_0_1_n_n.lhsIdx_val_of_single rfl i q
private theorem mmD_rhs0 (i : S2048x1.Idx) (q : dot_S2048x300_S300x1_S2048x1_1_0_0_1_n_n.contr.Idx) : (dot_S2048x300_S300x1_S2048x1_1_0_0_1_n_n.rhsIdx i q 0).val = (q ⟨0, by decide⟩).val :=
  dot_S2048x300_S300x1_S2048x1_1_0_0_1_n_n.rhsIdx_val_of_single rfl i q
private theorem mmD_rhs1 (i : S2048x1.Idx) (q : dot_S2048x300_S300x1_S2048x1_1_0_0_1_n_n.contr.Idx) : (dot_S2048x300_S300x1_S2048x1_1_0_0_1_n_n.rhsIdx i q 1).val = (i 1).val := by
  unfold DotDims.rhsIdx
  rw [dif_neg (show ¬(1 : Fin S300x1.rank) ∈ dot_S2048x300_S300x1_S2048x1_1_0_0_1_n_n.rhsBatch by decide), dif_pos (show (1 : Fin S300x1.rank) ∈ dot_S2048x300_S300x1_S2048x1_1_0_0_1_n_n.rhsNonContracting by decide)]
  rfl
private theorem mmD_apply (A : FVec Ideal S2048x300 .f32) (B : FVec Ideal S300x1 .f32) (p : Fin 2048) (c : Fin 1) :
    matmul dot_S2048x300_S300x1_S2048x1_1_0_0_1_n_n none A B (constant (F := Ideal) S2048x1 .f32 0x00000000#32) (ix2 p c)
      = ∑ k : Fin 300, A (ix2 p k) * B (ix2 k c) := by
  refine (Ideal.matmul_constant_zero_apply dot_S2048x300_S300x1_S2048x1_1_0_0_1_n_n none A B (ix2 p c)).trans ?_
  rw [← Equiv.sum_comp (contrEquiv1 dot_S2048x300_S300x1_S2048x1_1_0_0_1_n_n 300 rfl rfl).symm]
  refine Finset.sum_congr rfl fun k _ => ?_
  have hk := contrEquiv1_symm_val dot_S2048x300_S300x1_S2048x1_1_0_0_1_n_n 300 rfl rfl k
  have el : dot_S2048x300_S300x1_S2048x1_1_0_0_1_n_n.lhsIdx (ix2 p c) ((contrEquiv1 dot_S2048x300_S300x1_S2048x1_1_0_0_1_n_n 300 rfl rfl).symm k) = ix2 p k := funext fun a => Fin.ext (by
    match a with
    | ⟨0, _⟩ => exact mmD_lhs0 _ _
    | ⟨1, _⟩ => exact (mmD_lhs1 _ _).trans hk)
  have er : dot_S2048x300_S300x1_S2048x1_1_0_0_1_n_n.rhsIdx (ix2 p c) ((contrEquiv1 dot_S2048x300_S300x1_S2048x1_1_0_0_1_n_n 300 rfl rfl).symm k) = ix2 k c := funext fun a => Fin.ext (by
    match a with
    | ⟨0, _⟩ => exact (mmD_rhs0 _ _).trans hk
    | ⟨1, _⟩ => exact mmD_rhs1 _ _)
  rw [el, er]

/-- The first hidden layer as the body computes it: both operands narrowed (the identity on extended reals), the weight
    block transposed, the bias row broadcast over the rows, the cut-off at zero against a broadcast scalar. -/
private theorem layer1_apply (X : Vec Ideal S2048x512 .f32) (W1 : Vec Ideal S400x512 .f32) (B1 : Vec Ideal S1x400 .f32)
    (p : Fin 2048) (a : Fin 400) :
    maximumf (addf (matmul dot_S2048x512_S512x400_S2048x400_1_0_0_1_n_n none
          (truncf .bf16 (shapeCast S2048x512 X shapeCasts_S2048x512_S2048x512) bitsLt_bf16_f32)
          (transpose S512x400 [1, 0] (truncf .bf16 W1 bitsLt_bf16_f32) transposes_S400x512_p1_0_S512x400)
          (constant (F := Ideal) S2048x400 .f32 0x00000000#32))
        (broadcastTo S2048x400 (shapeCast S1x400 B1 shapeCasts_S1x400_S1x400) broadcasts_S1x400_S2048x400))
      (broadcast S2048x400 (Scalar.ofBits (F := Ideal) .f32 0x00000000#32)) (ix2 p a)
      = Mlp.hid1 (fun k => X (ix2 p k)) (fun a k => W1 (ix2 a k)) (fun a => B1 (ix2 (0 : Fin 1) a)) a := by
  rw [shapeCast_self, shapeCast_self]
  show max (matmul (F := Ideal) dot_S2048x512_S512x400_S2048x400_1_0_0_1_n_n none _ _ _ (ix2 p a) + broadcastTo S2048x400 B1 broadcasts_S1x400_S2048x400 (ix2 p a)) Mlp.zeroW = _
  rw [mmA_apply, broadcastTo_1b_ab_apply]
  unfold Mlp.hid1
  refine congrArg (fun s => max (s + B1 (ix2 (0 : Fin 1) a)) Mlp.zeroW) (Finset.sum_congr rfl fun k _ => ?_)
  rw [transpose_ix2_apply]
  rfl

/-- The second hidden layer over any block `H` of first-layer values. -/
private theorem layer2_apply (H : FVec Ideal S2048x400 .f32) (W2 : Vec Ideal S300x400 .f32) (B2 : Vec Ideal S1x300 .f32)
    (p : Fin 2048) (c : Fin 300) :
    maximumf (addf (matmul dot_S2048x400_S400x300_S2048x300_1_0_0_1_n_n none
          (truncf .bf16 H bitsLt_bf16_f32)
          (transpose S400x300 [1, 0] (truncf .bf16 W2 bitsLt_bf16_f32) transposes_S300x400_p1_0_S400x300)
          (constant (F := Ideal) S2048x300 .f32 0x00000000#32))
        (broadcastTo S2048x300 (shapeCast S1x300 B2 shapeCasts_S1x300_S1x300) broadcasts_S1x300_S2048x300))
      (broadcast S2048x300 (Scalar.ofBits (F := Ideal) .f32 0x00000000#32)) (ix2 p c)
      = max ((∑ a : Fin 400, H (ix2 p a) * W2 (ix2 c a)) + B2 (ix2 (0 : Fin 1) c)) Mlp.zeroW := by
  rw [shapeCast_self]
  show max (matmul (F := Ideal) dot_S2048x400_S400x300_S2048x300_1_0_0_1_n_n none _ _ _ (ix2 p c) + broadcastTo S2048x300 B2 broadcasts_S1x300_S2048x300 (ix2 p c)) Mlp.zeroW = _
  rw [mmB_apply, broadcastTo_1b_ab_apply]
  refine congrArg (fun s => max (s + B2 (ix2 (0 : Fin 1) c)) Mlp.zeroW) (Finset.sum_congr rfl fun a _ => ?_)
  rw [transpose_ix2_apply]
  rfl

/-- The first payload, the block of second-layer values, at row `p` and unit `c`. -/
private theorem pay1_apply (X : Vec Ideal S2048x512 .f32) (W1 : Vec Ideal S400x512 .f32) (B1 : Vec Ideal S1x400 .f32)
    (W2 : Vec Ideal S300x400 .f32) (B2 : Vec Ideal S1x300 .f32) (p : Fin 2048) (c : Fin 300) :
    k0_pay1 (F := Ideal) X W1 B1 W2 B2 (ix2 p c)
      = Mlp.hid2 (fun k => X (ix2 p k)) (fun a k => W1 (ix2 a k)) (fun a => B1 (ix2 (0 : Fin 1) a))
          (fun c a => W2 (ix2 c a)) (fun c => B2 (ix2 (0 : Fin 1) c)) c := by
  unfold k0_pay1
  refine (layer2_apply _ W2 B2 p c).trans ?_
  unfold Mlp.hid2
  refine congrArg (fun s => max (s + B2 (ix2 (0 : Fin 1) c)) Mlp.zeroW) (Finset.sum_congr rfl fun a _ => ?_)
  rw [layer1_apply]

/-- The clipped reward column. -/
private theorem pay2_apply (R : Vec Ideal S2048x1 .f32) (p : Fin 2048) :
    k0_pay2 (F := Ideal) R (ix2 p (0 : Fin 1)) = Mlp.clip (R (ix2 p (0 : Fin 1))) := by
  unfold k0_pay2
  rw [shapeCast_self]
  rfl

/-- The action column as reals. -/
private theorem pay3_apply (L : Vec Ideal S2048x1 .i32) (p : Fin 2048) :
    k0_pay3 (F := Ideal) L (ix2 p (0 : Fin 1)) = Mlp.actionReal (L (ix2 p (0 : Fin 1))) := by
  unfold k0_pay3
  rw [shapeCast_self]
  rfl

/-- The policy weights over the hidden units, transposed. -/
private theorem pay4_apply (Wpx : Vec Ideal S2x300 .f32) (b : Fin 300) (j : Fin 2) :
    k0_pay4 (F := Ideal) Wpx (ix2 b j) = Wpx (ix2 j b) := by
  unfold k0_pay4
  rw [shapeCast_self]
  exact transpose_ix2_apply Wpx transposes_S2x300_p1_0_S300x2 b j

/-- A column broadcast over the columns of a wider block reads the column's entry of that row. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The policy head before squashing, at row `p` and output `j`: over any block `H` of hidden values, clipped-reward
    column `C`, action column `A` and transposed weight block `T`. -/
private theorem polPre_apply (H : FVec Ideal S2048x300 .f32) (C A : FVec Ideal S2048x1 .f32) (T : FVec Ideal S300x2 .f32)
    (Wpc Wpl Bp : Vec Ideal S1x2 .f32) (p : Fin 2048) (j : Fin 2) :
    addf (addf (addf (matmul dot_S2048x300_S300x2_S2048x2_1_0_0_1_n_n none H T (constant (F := Ideal) S2048x2 .f32 0x00000000#32))
            (mulf (broadcastTo S2048x2 C broadcasts_S2048x1_S2048x2)
              (broadcastTo S2048x2 (shapeCast S1x2 Wpc shapeCasts_S1x2_S1x2) broadcasts_S1x2_S2048x2)))
          (mulf (broadcastTo S2048x2 A broadcasts_S2048x1_S2048x2)
            (broadcastTo S2048x2 (shapeCast S1x2 Wpl shapeCasts_S1x2_S1x2) broadcasts_S1x2_S2048x2)))
        (broadcastTo S2048x2 (shapeCast S1x2 Bp shapeCasts_S1x2_S1x2) broadcasts_S1x2_S2048x2) (ix2 p j)
      = Mlp.head (fun b => H (ix2 p b)) (C (ix2 p (0 : Fin 1))) (A (ix2 p (0 : Fin 1))) (fun b => T (ix2 b j))
          (Wpc (ix2 (0 : Fin 1) j)) (Wpl (ix2 (0 : Fin 1) j)) (Bp (ix2 (0 : Fin 1) j)) := by
  rw [shapeCast_self, shapeCast_self, shapeCast_self]
  show ((matmul (F := Ideal) dot_S2048x300_S300x2_S2048x2_1_0_0_1_n_n none H T _ (ix2 p j)
        + broadcastTo S2048x2 C broadcasts_S2048x1_S2048x2 (ix2 p j) * broadcastTo S2048x2 Wpc broadcasts_S1x2_S2048x2 (ix2 p j))
        + broadcastTo S2048x2 A broadcasts_S2048x1_S2048x2 (ix2 p j) * broadcastTo S2048x2 Wpl broadcasts_S1x2_S2048x2 (ix2 p j))
        + broadcastTo S2048x2 Bp broadcasts_S1x2_S2048x2 (ix2 p j) = _
  rw [mmC_apply, broadcastTo_a1_ab_apply, broadcastTo_a1_ab_apply, broadcastTo_1b_ab_apply, broadcastTo_1b_ab_apply,
    broadcastTo_1b_ab_apply]
  rfl

/-- The baseline head at row `p`. -/
private theorem basePre_apply (H : FVec Ideal S2048x300 .f32) (C A : FVec Ideal S2048x1 .f32)
    (Wbx : Vec Ideal S1x300 .f32) (Wbc Wbl Bb : Vec Ideal S1x1 .f32) (p : Fin 2048) :
    addf (addf (addf (matmul dot_S2048x300_S300x1_S2048x1_1_0_0_1_n_n none H
              (transpose S300x1 [1, 0] (shapeCast S1x300 Wbx shapeCasts_S1x300_S1x300) transposes_S1x300_p1_0_S300x1 : FVec Ideal S300x1 .f32)
              (constant (F := Ideal) S2048x1 .f32 0x00000000#32))
            (mulf C (broadcastTo S2048x1 (shapeCast S1x1 Wbc shapeCasts_S1x1_S1x1) broadcasts_S1x1_S2048x1)))
          (mulf A (broadcastTo S2048x1 (shapeCast S1x1 Wbl shapeCasts_S1x1_S1x1) broadcasts_S1x1_S2048x1)))
        (broadcastTo S2048x1 (shapeCast S1x1 Bb shapeCasts_S1x1_S1x1) broadcasts_S1x1_S2048x1) (ix2 p (0 : Fin 1))
      = Mlp.head (fun b => H (ix2 p b)) (C (ix2 p (0 : Fin 1))) (A (ix2 p (0 : Fin 1))) (fun b => Wbx (ix2 (0 : Fin 1) b))
          (Wbc (ix2 (0 : Fin 1) (0 : Fin 1))) (Wbl (ix2 (0 : Fin 1) (0 : Fin 1))) (Bb (ix2 (0 : Fin 1) (0 : Fin 1))) := by
  rw [shapeCast_self, shapeCast_self, shapeCast_self, shapeCast_self]
  show ((matmul (F := Ideal) dot_S2048x300_S300x1_S2048x1_1_0_0_1_n_n none H _ _ (ix2 p (0 : Fin 1))
        + C (ix2 p (0 : Fin 1)) * broadcastTo S2048x1 Wbc broadcasts_S1x1_S2048x1 (ix2 p (0 : Fin 1)))
        + A (ix2 p (0 : Fin 1)) * broadcastTo S2048x1 Wbl broadcasts_S1x1_S2048x1 (ix2 p (0 : Fin 1)))
        + broadcastTo S2048x1 Bb broadcasts_S1x1_S2048x1 (ix2 p (0 : Fin 1)) = _
  rw [mmD_apply, broadcastTo_1b_ab_apply, broadcastTo_1b_ab_apply, broadcastTo_1b_ab_apply]
  unfold Mlp.head
  refine congrArg (fun s => ((s + C (ix2 p (0 : Fin 1)) * Wbc (ix2 (0 : Fin 1) (0 : Fin 1)))
    + A (ix2 p (0 : Fin 1)) * Wbl (ix2 (0 : Fin 1) (0 : Fin 1))) + Bb (ix2 (0 : Fin 1) (0 : Fin 1)))
    (Finset.sum_congr rfl fun b _ => ?_)
  show H (ix2 p b) * transpose S300x1 [1, 0] Wbx transposes_S1x300_p1_0_S300x1 (ix2 b (0 : Fin 1)) = _
  rw [transpose_ix2_apply]

/-- The joined block reads its first piece at the columns 0 and 1, … -/
private theorem cat_pol (P : FVec Ideal S2048x2 .f32) (V Ac : FVec Ideal S2048x1 .f32) (p : Fin 2048) (q : Fin 4) (j : Fin 2)
    (hq : q.val = j.val) :
    concatenate S2048x4 1 [⟨S2048x2, P⟩, ⟨S2048x1, V⟩, ⟨S2048x1, Ac⟩] concatenates_S2048x2_S2048x1_S2048x1_S2048x4_d1 (ix2 p q)
      = P (ix2 p j) :=
  concatenate_apply_piece 1 _ _ (ix2 p q) 0 (by show (0 : ℕ) < 3; omega) S2048x2 P rfl rfl 0 rfl (ix2 p j)
    (fun b hb => match b with
      | ⟨0, _⟩ => rfl
      | ⟨1, _⟩ => absurd rfl hb)
    (by show 0 + j.val = q.val; omega)

/-- … its second piece at column 2, … -/
private theorem cat_base (P : FVec Ideal S2048x2 .f32) (V Ac : FVec Ideal S2048x1 .f32) (p : Fin 2048) (q : Fin 4)
    (hq : q.val = 2) :
    concatenate S2048x4 1 [⟨S2048x2, P⟩, ⟨S2048x1, V⟩, ⟨S2048x1, Ac⟩] concatenates_S2048x2_S2048x1_S2048x1_S2048x4_d1 (ix2 p q)
      = V (ix2 p (0 : Fin 1)) :=
  concatenate_apply_piece 1 _ _ (ix2 p q) 1 (by show (1 : ℕ) < 3; omega) S2048x1 V rfl rfl 2 rfl (ix2 p (0 : Fin 1))
    (fun b hb => match b with
      | ⟨0, _⟩ => rfl
      | ⟨1, _⟩ => absurd rfl hb)
    (by show 2 + 0 = q.val; omega)

/-- … and its third at column 3. -/
private theorem cat_act (P : FVec Ideal S2048x2 .f32) (V Ac : FVec Ideal S2048x1 .f32) (p : Fin 2048) (q : Fin 4)
    (hq : q.val = 3) :
    concatenate S2048x4 1 [⟨S2048x2, P⟩, ⟨S2048x1, V⟩, ⟨S2048x1, Ac⟩] concatenates_S2048x2_S2048x1_S2048x1_S2048x4_d1 (ix2 p q)
      = Ac (ix2 p (0 : Fin 1)) :=
  concatenate_apply_piece 1 _ _ (ix2 p q) 2 (by show (2 : ℕ) < 3; omega) S2048x1 Ac rfl rfl 3 rfl (ix2 p (0 : Fin 1))
    (fun b hb => match b with
      | ⟨0, _⟩ => rfl
      | ⟨1, _⟩ => absurd rfl hb)
    (by show 3 + 0 = q.val; omega)

/-- The sampled action column from the squashed policy block `P`: its column 0 plus its column 1 times the noise. -/
private theorem actCol_apply (P : FVec Ideal S2048x2 .f32) (E : Vec Ideal S2048x1 .f32) (p : Fin 2048) :
    addf (extractStridedSlice S2048x1 ![0, 0] P slices_S2048x2_o0_0_S2048x1)
        (mulf (extractStridedSlice S2048x1 ![0, 1] P slices_S2048x2_o0_1_S2048x1)
          (shapeCast S2048x1 E shapeCasts_S2048x1_S2048x1)) (ix2 p (0 : Fin 1))
      = P (ix2 p (0 : Fin 2)) + P (ix2 p (1 : Fin 2)) * E (ix2 p (0 : Fin 1)) := by
  rw [shapeCast_self]
  show extractStridedSlice S2048x1 ![0, 0] P slices_S2048x2_o0_0_S2048x1 (ix2 p (0 : Fin 1))
      + extractStridedSlice S2048x1 ![0, 1] P slices_S2048x2_o0_1_S2048x1 (ix2 p (0 : Fin 1)) * E (ix2 p (0 : Fin 1)) = _
  rw [slice2_axis1_apply 0 P slices_S2048x2_o0_0_S2048x1 p (0 : Fin 1) (0 : Fin 2) rfl,
    slice2_axis1_apply 1 P slices_S2048x2_o0_1_S2048x1 p (0 : Fin 1) (1 : Fin 2) rfl]

/-- A squashed policy head over any blocks. -/
private def polOf (H : FVec Ideal S2048x300 .f32) (C A : FVec Ideal S2048x1 .f32) (T : FVec Ideal S300x2 .f32)
    (Wpc Wpl Bp : Vec Ideal S1x2 .f32) (p : Fin 2048) (j : Fin 2) : EReal :=
  Ideal.logistic (Mlp.head (fun b => H (ix2 p b)) (C (ix2 p (0 : Fin 1))) (A (ix2 p (0 : Fin 1))) (fun b => T (ix2 b j))
    (Wpc (ix2 (0 : Fin 1) j)) (Wpl (ix2 (0 : Fin 1) j)) (Bp (ix2 (0 : Fin 1) j)))

/-- The squashed policy block at row `p` and output `j`. -/
private theorem pol_apply (H : FVec Ideal S2048x300 .f32) (C A : FVec Ideal S2048x1 .f32) (T : FVec Ideal S300x2 .f32)
    (Wpc Wpl Bp : Vec Ideal S1x2 .f32) (p : Fin 2048) (j : Fin 2) :
    logistic (addf (addf (addf (matmul dot_S2048x300_S300x2_S2048x2_1_0_0_1_n_n none H T (constant (F := Ideal) S2048x2 .f32 0x00000000#32))
            (mulf (broadcastTo S2048x2 C broadcasts_S2048x1_S2048x2)
              (broadcastTo S2048x2 (shapeCast S1x2 Wpc shapeCasts_S1x2_S1x2) broadcasts_S1x2_S2048x2)))
          (mulf (broadcastTo S2048x2 A broadcasts_S2048x1_S2048x2)
            (broadcastTo S2048x2 (shapeCast S1x2 Wpl shapeCasts_S1x2_S1x2) broadcasts_S1x2_S2048x2)))
        (broadcastTo S2048x2 (shapeCast S1x2 Bp shapeCasts_S1x2_S1x2) broadcasts_S1x2_S2048x2)) (ix2 p j)
      = polOf H C A T Wpc Wpl Bp p j :=
  congrArg Ideal.logistic (polPre_apply H C A T Wpc Wpl Bp p j)

/-- The last payload over any blocks: by the column, a squashed policy head, the baseline head or the sampled action. -/
private theorem pay5_apply (H : FVec Ideal S2048x300 .f32) (C A : FVec Ideal S2048x1 .f32) (T : FVec Ideal S300x2 .f32)
    (Wpc Wpl Bp : Vec Ideal S1x2 .f32) (Wbx : Vec Ideal S1x300 .f32) (Wbc Wbl Bb : Vec Ideal S1x1 .f32)
    (E : Vec Ideal S2048x1 .f32) (p : Fin 2048) (q : Fin 4) :
    k0_pay5 (F := Ideal) H C A T (constant (F := Ideal) S2048x2 .f32 0x00000000#32) Wpc Wpl Bp Wbx Wbc Wbl Bb E (ix2 p q)
      = if q.val = 0 then polOf H C A T Wpc Wpl Bp p 0
        else if q.val = 1 then polOf H C A T Wpc Wpl Bp p 1
        else if q.val = 2 then
          Mlp.head (fun b => H (ix2 p b)) (C (ix2 p (0 : Fin 1))) (A (ix2 p (0 : Fin 1))) (fun b => Wbx (ix2 (0 : Fin 1) b))
            (Wbc (ix2 (0 : Fin 1) (0 : Fin 1))) (Wbl (ix2 (0 : Fin 1) (0 : Fin 1))) (Bb (ix2 (0 : Fin 1) (0 : Fin 1)))
        else polOf H C A T Wpc Wpl Bp p 0 + polOf H C A T Wpc Wpl Bp p 1 * E (ix2 p (0 : Fin 1)) := by
  unfold k0_pay5
  by_cases h0 : q.val = 0
  · rw [if_pos h0]
    refine (cat_pol _ _ _ p q 0 h0).trans ?_
    exact pol_apply H C A T Wpc Wpl Bp p 0
  rw [if_neg h0]
  by_cases h1 : q.val = 1
  · rw [if_pos h1]
    refine (cat_pol _ _ _ p q 1 h1).trans ?_
    exact pol_apply H C A T Wpc Wpl Bp p 1
  rw [if_neg h1]
  by_cases h2 : q.val = 2
  · rw [if_pos h2]
    refine (cat_base _ _ _ p q h2).trans ?_
    exact basePre_apply H C A Wbx Wbc Wbl Bb p
  rw [if_neg h2]
  have h3 : q.val = 3 := by have := q.isLt; omega
  refine (cat_act _ _ _ p q h3).trans ?_
  refine (actCol_apply _ E p).trans ?_
  exact congrArg₂ (fun a b => a + b * E (ix2 p (0 : Fin 1))) (pol_apply H C A T Wpc Wpl Bp p 0) (pol_apply H C A T Wpc Wpl Bp p 1)

/-- The body's output block at row `p`, column `q`, from the blocks it loads: `X` the 2048 observation rows, `R`, `L`,
    `E` the rewards, actions and noise of those rows as columns, the rest the resident weights and biases (the policy and
    baseline weight rows arrive cut into their hidden-unit part and their two last entries). -/
theorem block_apply
    (X : Vec Ideal S2048x512 .f32) (R : Vec Ideal S2048x1 .f32) (L : Vec Ideal S2048x1 .i32) (E : Vec Ideal S2048x1 .f32)
    (W1 : Vec Ideal S400x512 .f32) (B1 : Vec Ideal S1x400 .f32) (W2 : Vec Ideal S300x400 .f32) (B2 : Vec Ideal S1x300 .f32)
    (Wpx : Vec Ideal S2x300 .f32) (Wpc : Vec Ideal S1x2 .f32) (Wpl : Vec Ideal S1x2 .f32) (Bp : Vec Ideal S1x2 .f32)
    (Wbx : Vec Ideal S1x300 .f32) (Wbc : Vec Ideal S1x1 .f32) (Wbl : Vec Ideal S1x1 .f32) (Bb : Vec Ideal S1x1 .f32)
    (p : Fin 2048) (q : Fin 4) :
    k0_pay5 (F := Ideal) (k0_pay1 (F := Ideal) X W1 B1 W2 B2) (k0_pay2 (F := Ideal) R) (k0_pay3 (F := Ideal) L)
        (k0_pay4 (F := Ideal) Wpx) (constant (F := Ideal) S2048x2 .f32 0x00000000#32) Wpc Wpl Bp Wbx Wbc Wbl Bb E (ix2 p q)
      = Mlp.rowOut (fun k => X (ix2 p k)) (fun a k => W1 (ix2 a k)) (fun a => B1 (ix2 (0 : Fin 1) a))
          (fun c a => W2 (ix2 c a)) (fun c => B2 (ix2 (0 : Fin 1) c))
          (R (ix2 p (0 : Fin 1))) (L (ix2 p (0 : Fin 1))) (E (ix2 p (0 : Fin 1)))
          (fun j c => Wpx (ix2 j c)) (fun j => Wpc (ix2 (0 : Fin 1) j)) (fun j => Wpl (ix2 (0 : Fin 1) j))
          (fun j => Bp (ix2 (0 : Fin 1) j))
          (fun c => Wbx (ix2 (0 : Fin 1) c)) (Wbc (ix2 (0 : Fin 1) (0 : Fin 1))) (Wbl (ix2 (0 : Fin 1) (0 : Fin 1)))
          (Bb (ix2 (0 : Fin 1) (0 : Fin 1))) q := by
  refine (pay5_apply _ _ _ _ Wpc Wpl Bp Wbx Wbc Wbl Bb E p q).trans ?_
  unfold Mlp.rowOut Mlp.act Mlp.pol Mlp.base polOf
  simp only [pay1_apply, pay2_apply, pay3_apply, pay4_apply]

end Cert.Mlp.KernelRow

end
-- ==== Proof.KernelFinal.lean ====
/-
  The kernel program's result array.

  Grid point `t` writes back rows `t · 2048 … t · 2048 + 2047` of the flat output [131072, 4]: row `p` of its block is the
  network's row function of step `t`, batch entry `p` (the body's arithmetic on the block, with each block entry an entry
  of an argument array). The 64 blocks tile the flat output, so after the region it is the network's output laid out
  flat; the host's last reshape folds it to [64, 2048, 4] without moving an entry in row-major order.
-/
import proofs.«114537_j53635551592612_1_alg».proof.Proof.KernelEntry
import proofs.«114537_j53635551592612_1_alg».proof.Proof.KernelRow
import Idealize.ShloMosaic.Lib.StableHlo.Run

set_option maxRecDepth 16384

noncomputable section

namespace Cert.Mlp.Kernel

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The network's output laid out flat: row `r` is step `r / 2048`, batch entry `r % 2048`. -/
def flat (c : Dev nD) : Vec Ideal S131072x4 .f32 := fun i =>
  Mlp.outAt (A0 m c) (A1 m c) (A2 m c) (A3 m c) (A4 m c) (A5 m c) (A6 m c) (A7 m c) (A8 m c) (A9 m c) (A10 m c) (A11 m c)
    ⟨(i 0).val / 2048, by have h : (i 0).val < 131072 := (i 0).isLt; omega⟩
    ⟨(i 0).val % 2048, Nat.mod_lt _ (by decide)⟩ ⟨(i 1).val, (i 1).isLt⟩

theorem flat_apply (c : Dev nD) (t : Fin 64) (p : Fin 2048) (q : Fin 4) :
    flat m c (ix2 (Mlp.flatRow t p) q) = Mlp.outAt (A0 m c) (A1 m c) (A2 m c) (A3 m c) (A4 m c) (A5 m c) (A6 m c) (A7 m c) (A8 m c) (A9 m c) (A10 m c) (A11 m c) t p q := by
  have ht : (t.val * 2048 + p.val) / 2048 = t.val := by have := p.isLt; omega
  have hp : (t.val * 2048 + p.val) % 2048 = p.val := by have := p.isLt; omega
  show Mlp.outAt (A0 m c) (A1 m c) (A2 m c) (A3 m c) (A4 m c) (A5 m c) (A6 m c) (A7 m c) (A8 m c) (A9 m c) (A10 m c) (A11 m c)
    ⟨(t.val * 2048 + p.val) / 2048, _⟩ ⟨(t.val * 2048 + p.val) % 2048, _⟩ ⟨q.val, _⟩ = _
  congr 1
  · exact Fin.ext ht
  · exact Fin.ext hp

theorem hz : (![0, 0] : Fin 2 → Nat) = fun _ => 0 := funext fun a => by fin_cases a <;> rfl

/-- The output window's block index at point `t`: block row `t`, block column 0. -/
theorem idx16 : ∀ t : Fin cfg0.N, win0_16.index t (0 : Fin 2) = t.val ∧ win0_16.index t (1 : Fin 2) = 0 :=
  (by decide +kernel : ∀ t : Fin grid0.N, _)

/-- Entry (p, q) of point `t`'s output block sits at row `t · 2048 + p`, column `q` of the flat output. -/
theorem emb16 (t : Fin cfg0.N) (p : Fin 2048) (q : Fin 4) :
    ((cfg0.win 16).blk t).view.emb (ix2 p q) = ix2 (Mlp.flatRow (step t) p) q := by
  obtain ⟨e0, e1⟩ := idx16 t
  funext a; apply Fin.ext
  match a with
  | ⟨0, _⟩ => show win0_16.index t (0 : Fin 2) * 2048 + 1 * p.val = t.val * 2048 + p.val; omega
  | ⟨1, _⟩ => show win0_16.index t (1 : Fin 2) * 4 + 1 * q.val = q.val; omega

/-- What point `t` writes back is block `t` of the flat output. -/
theorem flushed_eq (c : Dev nD) (t : Fin cfg0.N) :
    (dats m 0 c).flushed 16 t = ((cfg0.win 16).blk t).view.read (Elt Ideal) (flat m c) := by
  show (cfg0.win 16).cut (grid0.coords t) ((dats m 0 c).after 16 t) = _
  rw [after0_16]
  unfold out0_16
  rw [View.canon_unit_zero hz]
  simp only [View.ld_unit_zero (S := S2048x512) hz, View.ld_unit_zero (S := S400x512) hz, View.ld_unit_zero (S := S1x400) hz,
    View.ld_unit_zero (S := S300x400) hz, View.ld_unit_zero (S := S1x300) hz, View.ld_unit_zero (S := S2048x1) hz,
    View.ld_unit_zero (S := S2x300) hz, View.ld_unit_zero (S := S1x2) hz, View.ld_unit_zero (S := S1x1) hz]
  funext y
  obtain ⟨p, q, rfl⟩ : ∃ (p : Fin 2048) (q : Fin 4), y = ix2 p q := ⟨y 0, y 1, eq_ix2 y⟩
  show k0_pay5 (F := Ideal) (k0_pay1 (F := Ideal) (bX m c t) (bW1 m c t) (bB1 m c t) (bW2 m c t) (bB2 m c t))
      (k0_pay2 (F := Ideal) (bR m c t)) (k0_pay3 (F := Ideal) (bL m c t)) (k0_pay4 (F := Ideal) (bWpx m c t))
      (constant (F := Ideal) S2048x2 .f32 0x00000000#32) (bWpc m c t) (bWpl m c t) (bBp m c t) (bWbx m c t) (bWbc m c t)
      (bWbl m c t) (bBb m c t) (bE m c t) (ix2 p q)
    = flat m c (((cfg0.win 16).blk t).view.emb (ix2 p q))
  rw [emb16, flat_apply]
  refine (KernelRow.block_apply (bX m c t) (bR m c t) (bL m c t) (bE m c t) (bW1 m c t) (bB1 m c t) (bW2 m c t) (bB2 m c t) (bWpx m c t) (bWpc m c t) (bWpl m c t) (bBp m c t) (bWbx m c t) (bWbc m c t) (bWbl m c t) (bBb m c t) p q).trans ?_
  unfold Mlp.outAt
  simp only [bX_apply, bR_apply, bL_apply, bE_apply, bW1_apply, bB1_apply, bW2_apply, bB2_apply, bWpx_apply, bWpc_apply,
    bWpl_apply, bBp_apply, bWbx_apply, bWbc_apply, bWbl_apply, bBb_apply]

/-- An index of the flat output is in point `t`'s block iff each coordinate is in the block's range on its axis. -/
theorem mem_blk16 (t : Fin cfg0.N) (i : S131072x4.Idx) :
    i ∈ ((cfg0.win 16).blk t).view.set ↔ ∀ a : Fin 2, win0_16.index t a * S2048x4.size a ≤ (i a).val
      ∧ (i a).val < win0_16.index t a * S2048x4.size a + S2048x4.size a := by
  show i ∈ ((View.whole main_v18).slice (win0_16.rect t)).set ↔ _
  rw [View.set_slice_whole, Rect.mem_set_unit]
  exact Iff.rfl

/-- Every row of the flat output lies in the block of the point `row / 2048`. -/
theorem cover16 (c : Dev nD) (i : S131072x4.Idx) :
    ∃ t : Fin cfg0.N, (cfg0.win 16).flush t = true ∧ i ∈ ((cfg0.win 16).blk t).view.set := by
  have hi0 : (i 0).val < 131072 := (i 0).isLt
  have hi1 : (i 1).val < 4 := (i 1).isLt
  have hN : cfg0.N = 64 := N_0
  obtain ⟨t, ht⟩ : ∃ t : Fin cfg0.N, t.val = (i 0).val / 2048 := ⟨⟨(i 0).val / 2048, by omega⟩, rfl⟩
  obtain ⟨e0, e1⟩ := idx16 t
  refine ⟨t, flush0_16 t, ?_⟩
  rw [mem_blk16]
  intro a
  match a with
  | ⟨0, _⟩ =>
    show win0_16.index t (0 : Fin 2) * 2048 ≤ (i 0).val ∧ (i 0).val < win0_16.index t (0 : Fin 2) * 2048 + 2048
    omega
  | ⟨1, _⟩ =>
    show win0_16.index t (1 : Fin 2) * 4 ≤ (i 1).val ∧ (i 1).val < win0_16.index t (1 : Fin 2) * 4 + 4
    omega

/-- The flat output after the region. -/
theorem final (c : Dev nD) : (dats m 0 c).arrAt 16 cfg0.N = flat m c :=
  (dats m 0 c).arrAt_eq_of_cover 16 (flat m c) (fun t _ => flushed_eq m c t) (cover16 c)

/-- The result buffer after the host's last reshape: the network's output [64, 2048, 4]. -/
theorem tail_eq (c : Dev nD) :
    Pipeline.afterTail₀ cfgs (dats m) 0 (V0 m) [hostOps1] c main_v19
      = Mlp.out (A0 m c) (A1 m c) (A2 m c) (A3 m c) (A4 m c) (A5 m c) (A6 m c) (A7 m c) (A8 m c) (A9 m c) (A10 m c) (A11 m c) := by
  unfold Pipeline.afterTail₀
  show StableHlo.after hostOps1 _ (Proc.devRef .tc main_v19) = _
  after_results
  rw [(Pipeline.withArrays_arr spec0 launch0.win.arr_inj c _ _ 16).trans (final m c)]
  funext i
  obtain ⟨t, b, q, rfl⟩ : ∃ (t : Fin 64) (b : Fin 2048) (q : Fin 4), i = ix3 t b q := ⟨i 0, i 1, i 2, eq_ix3 i⟩
  rw [Mlp.out_apply]
  refine (shapeCast_apply (flat m c) shapeCasts_S131072x4_S64x2048x4 (ix3 t b q) (ix2 (Mlp.flatRow t b) q) ?_).trans
    (flat_apply m c t b q)
  rewrite [Shape.rowMajor_val_three, Shape.rowMajor_val_two]
  show (t.val * 2048 + b.val) * 4 + q.val = (t.val * 2048 + b.val) * 4 + q.val
  rfl

/-- The kernel program's run at the ideal instance: it terminates with the result buffer at the network's output of
    the argument arrays, the argument arrays unchanged. -/
theorem run : θ_run defs (onTc (τ := τ) (main (F := Ideal))) ⟨m, fun _ => 0, ρ⟩ (fun r => ∀ c : Dev nD,
      r.2.mem ((c.tc : Thread nD τ).loc main_v19) = Mlp.out (A0 m c) (A1 m c) (A2 m c) (A3 m c) (A4 m c) (A5 m c) (A6 m c) (A7 m c) (A8 m c) (A9 m c) (A10 m c) (A11 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v19 (Pipeline.mem_restRefs_of main_v19 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

end Cert.Mlp.Kernel

end
-- ==== Proof.RefHeads.lean ====
/-
  The reference program up to its two heads, read at an entry.

  Row `t · 2048 + b` of the flattened batch is step `t`, batch entry `b`. The reference's two hidden layers at that
  row are the network's; it then lays the 300 hidden units, the clipped reward and the action side by side and takes
  one dot product of those 302 entries with each weight row, which is the dot product over the hidden units plus the
  two remaining terms; its logistic function is spelled 1 / (1 + e^(-x)).
-/
import proofs.«114537_j53635551592612_1_alg».proof.Proof.Gen.ReferenceIdeal.Read
import proofs.«114537_j53635551592612_1_alg».proof.Proof.Spec
import Idealize.ShloMosaic.Lib.ValueIdx
import Idealize.ShloMosaic.Lib.Pipeline.Value
import Idealize.ShloMosaic.PureOps.Ideal.Laws

noncomputable section

open scoped BigOperators

namespace Cert.Mlp.Ref

open Cert.ReferenceIdeal Cert.ReferenceIdeal.Read Idealize.ShloMosaic Idealize.ShloMosaic.ValueIdx

variable (x0 : (⟨S64x2048x512, .f32⟩ : BufTy).Contents (Elt Ideal)) (x1 : (⟨S64x2048, .f32⟩ : BufTy).Contents (Elt Ideal))
  (x2 : (⟨S64x2048, .i32⟩ : BufTy).Contents (Elt Ideal)) (x3 : (⟨S131072, .f32⟩ : BufTy).Contents (Elt Ideal))
  (x4 : (⟨S400x512, .f32⟩ : BufTy).Contents (Elt Ideal)) (x5 : (⟨S400, .f32⟩ : BufTy).Contents (Elt Ideal))
  (x6 : (⟨S300x400, .f32⟩ : BufTy).Contents (Elt Ideal)) (x7 : (⟨S300, .f32⟩ : BufTy).Contents (Elt Ideal))
  (x8 : (⟨S2x302, .f32⟩ : BufTy).Contents (Elt Ideal)) (x9 : (⟨S2, .f32⟩ : BufTy).Contents (Elt Ideal))
  (x10 : (⟨S1x302, .f32⟩ : BufTy).Contents (Elt Ideal)) (x11 : (⟨S1, .f32⟩ : BufTy).Contents (Elt Ideal))

/-! ### Index equations: the reference's composed index maps at row `t · 2048 + b` -/

/-- The observation read by the first layer's dot product: row `t · 2048 + b`, column `k` of the flattened batch is
    entry `(t, b, k)`. -/
private theorem idx_obs (t : Fin 64) (b : Fin 2048) (c : Fin 300) (a : Fin 400) (k : Fin 512) :
    idx_main_v0 (lidx_main_v2 (lidx_main_v8 (ix2 (Mlp.flatRow t b) c) a) k) = ix3 t b k :=
  funext fun d => Fin.ext (by
    have ht := t.isLt; have hb := b.isLt; have hk := k.isLt
    match d with
    | ⟨0, _⟩ => show ((t.val * 2048 + b.val) * 512 + k.val) / 1048576 = t.val; omega
    | ⟨1, _⟩ => show ((t.val * 2048 + b.val) * 512 + k.val) / 512 % 2048 = b.val; omega
    | ⟨2, _⟩ => show ((t.val * 2048 + b.val) * 512 + k.val) % 512 = k.val; omega)

/-- The first layer's weight read through the transpose. -/
private theorem idx_w1 (r : Fin 131072) (c : Fin 300) (a : Fin 400) (k : Fin 512) :
    idx_main_v1 (ridx_main_v2 (lidx_main_v8 (ix2 r c) a) k) = ix2 a k :=
  funext fun d => Fin.ext (by match d with | ⟨0, _⟩ => rfl | ⟨1, _⟩ => rfl)

/-- The first layer's bias read through its two broadcasts. -/
private theorem idx_b1 (r : Fin 131072) (c : Fin 300) (a : Fin 400) :
    idx_main_v3 (idx_main_v4 (lidx_main_v8 (ix2 r c) a)) = ix1 a :=
  funext fun d => Fin.ext (by match d with | ⟨0, _⟩ => rfl)

/-- The second layer's weight read through the transpose. -/
private theorem idx_w2 (r : Fin 131072) (c : Fin 300) (a : Fin 400) :
    idx_main_v7 (ridx_main_v8 (ix2 r c) a) = ix2 c a :=
  funext fun d => Fin.ext (by match d with | ⟨0, _⟩ => rfl | ⟨1, _⟩ => rfl)

/-- The second layer's bias read through its two broadcasts. -/
private theorem idx_b2 (r : Fin 131072) (c : Fin 300) :
    idx_main_v9 (idx_main_v10 (ix2 r c)) = ix1 c :=
  funext fun d => Fin.ext (by match d with | ⟨0, _⟩ => rfl)

/-- The reference's second hidden layer at row `t · 2048 + b`, unit `c`. -/
theorem ref_hidden (t : Fin 64) (b : Fin 2048) (c : Fin 300) :
    val_main_v12 (F := Ideal) x0 x4 x5 x6 x7 (ix2 (Mlp.flatRow t b) c) = Mlp.hiddenAt x0 x4 x5 x6 x7 t b c := by
  rw [val_main_v12_apply, val_main_v11_apply, val_main_v8_apply, val_main_v10_apply, val_main_v9_apply,
    val_main_call1_v0_apply, val_main_call1_cst_apply]
  simp only [val_main_v6_apply, val_main_v7_apply, val_main_v5_apply, val_main_v2_apply, val_main_v4_apply,
    val_main_v3_apply, val_main_call0_v0_apply, val_main_call0_cst_apply, val_main_v0_apply, val_main_v1_apply]
  simp only [idx_obs, idx_w1, idx_b1, idx_w2, idx_b2, Ideal.maximumf_def, Ideal.addf_def]
  unfold Mlp.hiddenAt Mlp.hid2 Mlp.hid1
  rfl

/-! ### The 302 inputs of a head laid side by side -/

/-- Columns below 300 of the joined array are the second hidden layer's. -/
private theorem cat_hidden (r : Fin 131072) (k : Fin 302) (hk : k.val < 300) :
    val_main_v17 (F := Ideal) x0 x1 x2 x4 x5 x6 x7 (ix2 r k)
      = val_main_v12 (F := Ideal) x0 x4 x5 x6 x7 (ix2 r (⟨k.val, hk⟩ : Fin 300)) := by
  unfold val_main_v17
  refine concatenate_apply_piece (α := Elt Ideal EltTy.f32) (1 : Fin S131072x302.rank)
    [⟨S131072x300, val_main_v12 (F := Ideal) x0 x4 x5 x6 x7⟩, ⟨S131072x1, val_main_v16 (F := Ideal) x1⟩,
      ⟨S131072x1, val_main_v14 (F := Ideal) x2⟩] _
    (ix2 r k) 0 (show (0 : Nat) < 3 by omega) S131072x300 (val_main_v12 (F := Ideal) x0 x4 x5 x6 x7) rfl rfl 0 rfl
    (ix2 r (⟨k.val, hk⟩ : Fin 300)) (fun d hd => ?_) ?_
  · match d with
    | ⟨0, _⟩ => rfl
    | ⟨1, _⟩ => exact absurd rfl hd
  · show 0 + k.val = k.val
    omega

/-- Column 300 of the joined array is the clipped reward's one column. -/
private theorem cat_clip (r : Fin 131072) (k : Fin 302) (hk : k.val = 300) :
    val_main_v17 (F := Ideal) x0 x1 x2 x4 x5 x6 x7 (ix2 r k)
      = val_main_v16 (F := Ideal) x1 (ix2 r (0 : Fin 1)) := by
  unfold val_main_v17
  refine concatenate_apply_piece (α := Elt Ideal EltTy.f32) (1 : Fin S131072x302.rank)
    [⟨S131072x300, val_main_v12 (F := Ideal) x0 x4 x5 x6 x7⟩, ⟨S131072x1, val_main_v16 (F := Ideal) x1⟩,
      ⟨S131072x1, val_main_v14 (F := Ideal) x2⟩] _
    (ix2 r k) 1 (show (1 : Nat) < 3 by omega) S131072x1 (val_main_v16 (F := Ideal) x1) rfl rfl 300 rfl
    (ix2 r (0 : Fin 1)) (fun d hd => ?_) ?_
  · match d with
    | ⟨0, _⟩ => rfl
    | ⟨1, _⟩ => exact absurd rfl hd
  · show 300 + 0 = k.val
    omega

/-- Column 301 of the joined array is the action's one column. -/
private theorem cat_action (r : Fin 131072) (k : Fin 302) (hk : k.val = 301) :
    val_main_v17 (F := Ideal) x0 x1 x2 x4 x5 x6 x7 (ix2 r k)
      = val_main_v14 (F := Ideal) x2 (ix2 r (0 : Fin 1)) := by
  unfold val_main_v17
  refine concatenate_apply_piece (α := Elt Ideal EltTy.f32) (1 : Fin S131072x302.rank)
    [⟨S131072x300, val_main_v12 (F := Ideal) x0 x4 x5 x6 x7⟩, ⟨S131072x1, val_main_v16 (F := Ideal) x1⟩,
      ⟨S131072x1, val_main_v14 (F := Ideal) x2⟩] _
    (ix2 r k) 2 (show (2 : Nat) < 3 by omega) S131072x1 (val_main_v14 (F := Ideal) x2) rfl rfl 301 rfl
    (ix2 r (0 : Fin 1)) (fun d hd => ?_) ?_
  · match d with
    | ⟨0, _⟩ => rfl
    | ⟨1, _⟩ => exact absurd rfl hd
  · show 301 + 0 = k.val
    omega

/-- Row `t · 2048 + b` of the one-column reward array is entry `(t, b)`. -/
private theorem idx_reward (t : Fin 64) (b : Fin 2048) :
    idx_main_v16 (ix2 (Mlp.flatRow t b) (0 : Fin 1)) = ix2 t b :=
  funext fun d => Fin.ext (by
    have ht := t.isLt; have hb := b.isLt
    match d with
    | ⟨0, _⟩ => show ((t.val * 2048 + b.val) * 1 + 0) / 2048 = t.val; omega
    | ⟨1, _⟩ => show ((t.val * 2048 + b.val) * 1 + 0) % 2048 = b.val; omega)

/-- Row `t · 2048 + b` of the one-column action array is entry `(t, b)`. -/
private theorem idx_action (t : Fin 64) (b : Fin 2048) :
    idx_main_v13 (ix2 (Mlp.flatRow t b) (0 : Fin 1)) = ix2 t b :=
  funext fun d => Fin.ext (by
    have ht := t.isLt; have hb := b.isLt
    match d with
    | ⟨0, _⟩ => show ((t.val * 2048 + b.val) * 1 + 0) / 2048 = t.val; omega
    | ⟨1, _⟩ => show ((t.val * 2048 + b.val) * 1 + 0) % 2048 = b.val; omega)

/-- The reference's clipped reward at row `t · 2048 + b`: min 1 (max (-1) reward). -/
private theorem ref_clip (t : Fin 64) (b : Fin 2048) :
    val_main_v16 (F := Ideal) x1 (ix2 (Mlp.flatRow t b) (0 : Fin 1)) = Mlp.clip (x1 (ix2 t b)) := by
  rw [val_main_v16_apply, val_main_v15_apply, val_main_call2_v4_apply, val_main_call2_v3_apply, val_main_cst_0_apply,
    val_main_call2_v2_apply, val_main_call2_v1_apply, val_main_call2_v0_apply, val_main_cst_apply, idx_reward]
  rfl

/-- The reference's action as a real number at row `t · 2048 + b`. -/
private theorem ref_action (t : Fin 64) (b : Fin 2048) :
    val_main_v14 (F := Ideal) x2 (ix2 (Mlp.flatRow t b) (0 : Fin 1)) = Mlp.actionReal (x2 (ix2 t b)) := by
  rw [val_main_v14_apply, val_main_v13_apply, idx_action]
  rfl

/-- The joined array at row `t · 2048 + b` is the network's 302 head inputs: the hidden units, the clipped reward,
    the action. -/
private theorem ref_core (t : Fin 64) (b : Fin 2048) (k : Fin 302) :
    val_main_v17 (F := Ideal) x0 x1 x2 x4 x5 x6 x7 (ix2 (Mlp.flatRow t b) k)
      = Mlp.core (Mlp.hiddenAt x0 x4 x5 x6 x7 t b) (Mlp.clip (x1 (ix2 t b))) (Mlp.actionReal (x2 (ix2 t b))) k := by
  unfold Mlp.core
  by_cases h1 : k.val < 300
  · rw [dif_pos h1, cat_hidden x0 x1 x2 x4 x5 x6 x7 _ k h1, ref_hidden]
  · rw [dif_neg h1]
    by_cases h2 : k.val = 300
    · rw [if_pos h2, cat_clip x0 x1 x2 x4 x5 x6 x7 _ k h2, ref_clip]
    · have h3 : k.val = 301 := by have := k.isLt; omega
      rw [if_neg h2, cat_action x0 x1 x2 x4 x5 x6 x7 _ k h3, ref_action]

/-! ### The two heads -/

/-- The policy head's dot product reads the joined array along its row. -/
private theorem idx_pol_in (r : Fin 131072) (j : Fin 2) (k : Fin 302) : lidx_main_v19 (ix2 r j) k = ix2 r k :=
  funext fun d => Fin.ext (by match d with | ⟨0, _⟩ => rfl | ⟨1, _⟩ => rfl)

/-- The policy weight read through the transpose. -/
private theorem idx_pol_w (r : Fin 131072) (j : Fin 2) (k : Fin 302) :
    idx_main_v18 (ridx_main_v19 (ix2 r j) k) = ix2 j k :=
  funext fun d => Fin.ext (by match d with | ⟨0, _⟩ => rfl | ⟨1, _⟩ => rfl)

/-- The policy bias read through its two broadcasts. -/
private theorem idx_pol_b (r : Fin 131072) (j : Fin 2) : idx_main_v20 (idx_main_v21 (ix2 r j)) = ix1 j :=
  funext fun d => Fin.ext (by match d with | ⟨0, _⟩ => rfl)

/-- The baseline head's dot product reads the joined array along its row. -/
private theorem idx_base_in (r : Fin 131072) (k : Fin 302) : lidx_main_v30 (ix2 r (0 : Fin 1)) k = ix2 r k :=
  funext fun d => Fin.ext (by match d with | ⟨0, _⟩ => rfl | ⟨1, _⟩ => rfl)

/-- The baseline weight read through the transpose. -/
private theorem idx_base_w (r : Fin 131072) (k : Fin 302) :
    idx_main_v29 (ridx_main_v30 (ix2 r (0 : Fin 1)) k) = ix2 (0 : Fin 1) k :=
  funext fun d => Fin.ext (by match d with | ⟨0, _⟩ => rfl | ⟨1, _⟩ => rfl)

/-- The baseline bias read through its two broadcasts. -/
private theorem idx_base_b (r : Fin 131072) : idx_main_v31 (idx_main_v32 (ix2 r (0 : Fin 1))) = ix1 (0 : Fin 1) :=
  funext fun d => Fin.ext (by match d with | ⟨0, _⟩ => rfl)

/-- The reference's policy output `j` at row `t · 2048 + b` (after its spelled-out logistic function). -/
theorem ref_pol (t : Fin 64) (b : Fin 2048) (j : Fin 2) :
    val_main_v28 (F := Ideal) x0 x1 x2 x4 x5 x6 x7 x8 x9 (ix2 (Mlp.flatRow t b) j)
      = Mlp.polAt x0 x1 x2 x4 x5 x6 x7 x8 x9 t b j := by
  rw [val_main_v28_apply, val_main_v27_apply, val_main_cst_2_apply, val_main_v26_apply, val_main_v25_apply,
    val_main_cst_1_apply, val_main_v24_apply, val_main_v23_apply, val_main_v22_apply, val_main_v19_apply,
    val_main_v21_apply, val_main_v20_apply]
  simp only [val_main_v18_apply, idx_pol_in, idx_pol_w, idx_pol_b, ref_core, Ideal.hostDivf_def, Ideal.addf_def,
    Ideal.hostUnary_exp_def, Ideal.hostNegf_def, Ideal.negf_def]
  -- the one dot product over the 302 inputs is the dot product over the hidden units plus the two remaining terms
  have hc : (∑ k : Fin 302, Mlp.core (Mlp.hiddenAt x0 x4 x5 x6 x7 t b) (Mlp.clip (x1 (ix2 t b)))
        (Mlp.actionReal (x2 (ix2 t b))) k * x8 (ix2 j k)) + x9 (ix1 j)
      = Mlp.head (Mlp.hiddenAt x0 x4 x5 x6 x7 t b) (Mlp.clip (x1 (ix2 t b))) (Mlp.actionReal (x2 (ix2 t b)))
          (fun c => x8 (ix2 j (⟨c.val, by omega⟩ : Fin 302))) (x8 (ix2 j (⟨300, by omega⟩ : Fin 302)))
          (x8 (ix2 j (⟨301, by omega⟩ : Fin 302))) (x9 (ix1 j)) :=
    Mlp.headCat_eq_head (Mlp.hiddenAt x0 x4 x5 x6 x7 t b) (Mlp.clip (x1 (ix2 t b))) (Mlp.actionReal (x2 (ix2 t b)))
      (fun k => x8 (ix2 j k)) (x9 (ix1 j))
  rw [hc]
  -- 1 / (1 + e^(-x)) is the logistic function
  refine (Mlp.logistic_spelled _).trans ?_
  rfl

/-- The reference's baseline at row `t · 2048 + b`. -/
theorem ref_base (t : Fin 64) (b : Fin 2048) :
    val_main_v33 (F := Ideal) x0 x1 x2 x4 x5 x6 x7 x10 x11 (ix2 (Mlp.flatRow t b) (0 : Fin 1))
      = Mlp.baseAt x0 x1 x2 x4 x5 x6 x7 x10 x11 t b := by
  rw [val_main_v33_apply, val_main_v30_apply, val_main_v32_apply, val_main_v31_apply]
  simp only [val_main_v29_apply, idx_base_in, idx_base_w, idx_base_b, ref_core, Ideal.addf_def]
  -- the one dot product over the 302 inputs is the dot product over the hidden units plus the two remaining terms
  refine (Mlp.headCat_eq_head (Mlp.hiddenAt x0 x4 x5 x6 x7 t b) (Mlp.clip (x1 (ix2 t b)))
    (Mlp.actionReal (x2 (ix2 t b))) (fun k => x10 (ix2 (0 : Fin 1) k)) (x11 (ix1 (0 : Fin 1)))).trans ?_
  rfl

end Cert.Mlp.Ref

end
-- ==== Proof.RefOut.lean ====
/-
  The reference program's result array, read at an entry.

  After the heads the reference slices the two policy columns apart, forms the action as mean plus scale times the
  noise on the flat batch, folds the three pieces back to [64, 2048, ·] and joins them along the last axis: columns 0
  and 1 are the policy pair, column 2 the baseline, column 3 the action.
-/
import proofs.«114537_j53635551592612_1_alg».proof.Proof.RefHeads

noncomputable section

open scoped BigOperators

namespace Cert.Mlp.Ref

open Cert.ReferenceIdeal Cert.ReferenceIdeal.Read Idealize.ShloMosaic Idealize.ShloMosaic.ValueIdx

variable (x0 : (⟨S64x2048x512, .f32⟩ : BufTy).Contents (Elt Ideal)) (x1 : (⟨S64x2048, .f32⟩ : BufTy).Contents (Elt Ideal))
  (x2 : (⟨S64x2048, .i32⟩ : BufTy).Contents (Elt Ideal)) (x3 : (⟨S131072, .f32⟩ : BufTy).Contents (Elt Ideal))
  (x4 : (⟨S400x512, .f32⟩ : BufTy).Contents (Elt Ideal)) (x5 : (⟨S400, .f32⟩ : BufTy).Contents (Elt Ideal))
  (x6 : (⟨S300x400, .f32⟩ : BufTy).Contents (Elt Ideal)) (x7 : (⟨S300, .f32⟩ : BufTy).Contents (Elt Ideal))
  (x8 : (⟨S2x302, .f32⟩ : BufTy).Contents (Elt Ideal)) (x9 : (⟨S2, .f32⟩ : BufTy).Contents (Elt Ideal))
  (x10 : (⟨S1x302, .f32⟩ : BufTy).Contents (Elt Ideal)) (x11 : (⟨S1, .f32⟩ : BufTy).Contents (Elt Ideal))

/-! ## Where each fold reads its operand

Row-major position `(t · 2048 + b) · w + j` of a `[64, 2048, w]` array is position `(t · 2048 + b, j)` of the
`[131072, w]` array it was folded from. -/

/-- The pair fold `[131072, 2] → [64, 2048, 2]` reads row `t · 2048 + b`, column `j`. -/
private theorem idx_fold_pair (t : Fin 64) (b : Fin 2048) (j : Fin 2) :
    idx_main_v40 (ix3 t b j) = ix2 (Mlp.flatRow t b) j := by
  have ht := t.isLt
  have hb := b.isLt
  have hj := j.isLt
  funext a
  apply Fin.ext
  match a with
  | ⟨0, _⟩ => show ((t.val * 2048 + b.val) * 2 + j.val) / 2 = t.val * 2048 + b.val; omega
  | ⟨1, _⟩ => show ((t.val * 2048 + b.val) * 2 + j.val) % 2 = j.val; omega

/-- The fold `[131072, 1] → [64, 2048, 1]` reads row `t · 2048 + b`. -/
private theorem idx_fold_col (t : Fin 64) (b : Fin 2048) :
    idx_main_v41 (ix3 t b (0 : Fin 1)) = ix2 (Mlp.flatRow t b) (0 : Fin 1) := by
  have ht := t.isLt
  have hb := b.isLt
  funext a
  apply Fin.ext
  match a with
  | ⟨0, _⟩ => show ((t.val * 2048 + b.val) * 1 + 0) / 1 = t.val * 2048 + b.val; omega
  | ⟨1, _⟩ => rfl

/-- The fold `[131072] → [64, 2048, 1]` reads position `t · 2048 + b`. -/
private theorem idx_fold_flat (t : Fin 64) (b : Fin 2048) :
    idx_main_v42 (ix3 t b (0 : Fin 1)) = ix1 (Mlp.flatRow t b) := by
  have ht := t.isLt
  have hb := b.isLt
  funext a
  apply Fin.ext
  match a with
  | ⟨0, _⟩ => show (t.val * 2048 + b.val) * 1 + 0 = t.val * 2048 + b.val; omega

/-- Column 0 of the policy pair, flattened, at position `r`. -/
private theorem mean_flat (r : Fin 131072) :
    val_main_v35 (F := Ideal) x0 x1 x2 x4 x5 x6 x7 x8 x9 (ix1 r)
      = val_main_v28 (F := Ideal) x0 x1 x2 x4 x5 x6 x7 x8 x9 (ix2 r (0 : Fin 2)) := by
  have hr := r.isLt
  rw [val_main_v35_apply, val_main_v34_apply]
  congr 1
  funext a
  apply Fin.ext
  match a with
  | ⟨0, _⟩ => show r.val / 1 = r.val; omega
  | ⟨1, _⟩ => rfl

/-- Column 1 of the policy pair, flattened, at position `r`. -/
private theorem scale_flat (r : Fin 131072) :
    val_main_v37 (F := Ideal) x0 x1 x2 x4 x5 x6 x7 x8 x9 (ix1 r)
      = val_main_v28 (F := Ideal) x0 x1 x2 x4 x5 x6 x7 x8 x9 (ix2 r (1 : Fin 2)) := by
  have hr := r.isLt
  rw [val_main_v37_apply, val_main_v36_apply]
  congr 1
  funext a
  apply Fin.ext
  match a with
  | ⟨0, _⟩ => show r.val / 1 = r.val; omega
  | ⟨1, _⟩ => rfl

/-! ## The join along the last axis, one piece at a time -/

/-- Columns 0 and 1 of the result come from the folded policy pair. -/
private theorem join_pair (t : Fin 64) (b : Fin 2048) (q : Fin 4) (hq : q.val < 2) :
    val_main_v43 (F := Ideal) x0 x1 x2 x3 x4 x5 x6 x7 x8 x9 x10 x11 (ix3 t b q)
      = val_main_v40 (F := Ideal) x0 x1 x2 x4 x5 x6 x7 x8 x9 (ix3 t b (⟨q.val, hq⟩ : Fin 2)) := by
  unfold val_main_v43
  refine concatenate_apply_piece _ _ _ (ix3 t b q) 0 (by show (0 : Nat) < 3; omega) S64x2048x2 _ rfl rfl 0 rfl
    (ix3 t b (⟨q.val, hq⟩ : Fin 2)) (fun c hc => ?_) ?_
  · match c with
    | ⟨0, _⟩ => rfl
    | ⟨1, _⟩ => rfl
    | ⟨2, _⟩ => exact absurd rfl hc
  · show 0 + q.val = q.val
    omega

/-- Column 2 of the result comes from the folded baseline. -/
private theorem join_base (t : Fin 64) (b : Fin 2048) (q : Fin 4) (hq : q.val = 2) :
    val_main_v43 (F := Ideal) x0 x1 x2 x3 x4 x5 x6 x7 x8 x9 x10 x11 (ix3 t b q)
      = val_main_v41 (F := Ideal) x0 x1 x2 x4 x5 x6 x7 x10 x11 (ix3 t b (0 : Fin 1)) := by
  unfold val_main_v43
  refine concatenate_apply_piece _ _ _ (ix3 t b q) 1 (by show (1 : Nat) < 3; omega) S64x2048x1 _ rfl rfl 2 rfl
    (ix3 t b (0 : Fin 1)) (fun c hc => ?_) ?_
  · match c with
    | ⟨0, _⟩ => rfl
    | ⟨1, _⟩ => rfl
    | ⟨2, _⟩ => exact absurd rfl hc
  · show 2 + 0 = q.val
    omega

/-- Column 3 of the result comes from the folded action. -/
private theorem join_act (t : Fin 64) (b : Fin 2048) (q : Fin 4) (hq : q.val = 3) :
    val_main_v43 (F := Ideal) x0 x1 x2 x3 x4 x5 x6 x7 x8 x9 x10 x11 (ix3 t b q)
      = val_main_v42 (F := Ideal) x0 x1 x2 x3 x4 x5 x6 x7 x8 x9 (ix3 t b (0 : Fin 1)) := by
  unfold val_main_v43
  refine concatenate_apply_piece _ _ _ (ix3 t b q) 2 (by show (2 : Nat) < 3; omega) S64x2048x1 _ rfl rfl 3 rfl
    (ix3 t b (0 : Fin 1)) (fun c hc => ?_) ?_
  · match c with
    | ⟨0, _⟩ => rfl
    | ⟨1, _⟩ => rfl
    | ⟨2, _⟩ => exact absurd rfl hc
  · show 3 + 0 = q.val
    omega

/-- The reference's result at step `t`, batch entry `b`, column `q`. -/
theorem ref_out_apply (t : Fin 64) (b : Fin 2048) (q : Fin 4) :
    val_main_v43 (F := Ideal) x0 x1 x2 x3 x4 x5 x6 x7 x8 x9 x10 x11 (ix3 t b q)
      = Mlp.outAt x0 x1 x2 x3 x4 x5 x6 x7 x8 x9 x10 x11 t b q := by
  have hq := q.isLt
  rcases (by omega : q.val = 0 ∨ q.val = 1 ∨ q.val = 2 ∨ q.val = 3) with h | h | h | h
  · -- column 0: the mean
    rw [Mlp.outAt_of_zero x0 x1 x2 x3 x4 x5 x6 x7 x8 x9 x10 x11 t b q h,
      join_pair x0 x1 x2 x3 x4 x5 x6 x7 x8 x9 x10 x11 t b q (by omega), val_main_v40_apply, idx_fold_pair, ref_pol]
    congr 1
    exact Fin.ext h
  · -- column 1: the scale
    rw [Mlp.outAt_of_one x0 x1 x2 x3 x4 x5 x6 x7 x8 x9 x10 x11 t b q h,
      join_pair x0 x1 x2 x3 x4 x5 x6 x7 x8 x9 x10 x11 t b q (by omega), val_main_v40_apply, idx_fold_pair, ref_pol]
    congr 1
    exact Fin.ext h
  · -- column 2: the baseline
    rw [Mlp.outAt_of_two x0 x1 x2 x3 x4 x5 x6 x7 x8 x9 x10 x11 t b q h,
      join_base x0 x1 x2 x3 x4 x5 x6 x7 x8 x9 x10 x11 t b q h, val_main_v41_apply, idx_fold_col, ref_base]
  · -- column 3: the action, mean plus scale times the noise
    rw [Mlp.outAt_of_three x0 x1 x2 x3 x4 x5 x6 x7 x8 x9 x10 x11 t b q h,
      join_act x0 x1 x2 x3 x4 x5 x6 x7 x8 x9 x10 x11 t b q h, val_main_v42_apply, idx_fold_flat,
      val_main_v39_apply, val_main_v38_apply, mean_flat, scale_flat, ref_pol, ref_pol]
    unfold Mlp.actAt
    rw [Ideal.addf_def, Ideal.mulf_def]

/-- The reference's result array is the network's function of the argument arrays. -/
theorem ref_out :
    val_main_v43 (F := Ideal) x0 x1 x2 x3 x4 x5 x6 x7 x8 x9 x10 x11 = Mlp.out x0 x1 x2 x3 x4 x5 x6 x7 x8 x9 x10 x11 := by
  funext i
  rw [eq_ix3 i]
  exact ref_out_apply x0 x1 x2 x3 x4 x5 x6 x7 x8 x9 x10 x11 (i 0) (i 1) (i 2)

end Cert.Mlp.Ref

end
-- ==== Proof.lean ====
/-
  The certificate: the kernel, its idealization and the reference compute one network.

  Every row of the 64 · 2048 batch goes through two hidden layers (affine maps cut off below at zero), a policy head
  squashed by the logistic function, a baseline head, and a sampled action (mean plus scale times a noise sample). The
  kernel streams 2048 rows per grid point and cuts each head's weight row into its hidden-unit part and its two last
  entries; the reference lays the hidden units, the clipped reward and the action side by side and takes one dot product
  per head. Over the extended reals the two arrangements are one sum split after its 300th and 301st terms
  (Proof/Spec.lean); nothing here needs the inputs to be finite.

  The three frames: the two kernel programs' frames are the generated frame certificates, the reference's is its
  generated run with the result dropped. The idealization rewrote no operation, so its claim is trivial. For the value
  claim, both programs end with their result buffers at the same function `Mlp.out` of the argument arrays
  (Proof/KernelFinal.lean for the kernel, Proof/RefOut.lean for the reference).
-/
import proofs.«114537_j53635551592612_1_alg».proof.Defs
import proofs.«114537_j53635551592612_1_alg».proof.Proof.Gen.Kernel
import proofs.«114537_j53635551592612_1_alg».proof.Proof.Gen.Kernel.Skeleton
import proofs.«114537_j53635551592612_1_alg».proof.Proof.Gen.Kernel.Launch
import proofs.«114537_j53635551592612_1_alg».proof.Proof.Gen.Kernel.Points
import proofs.«114537_j53635551592612_1_alg».proof.Proof.Gen.Kernel.Frame
import proofs.«114537_j53635551592612_1_alg».proof.Proof.Gen.KernelIdeal
import proofs.«114537_j53635551592612_1_alg».proof.Proof.Gen.KernelIdeal.Skeleton
import proofs.«114537_j53635551592612_1_alg».proof.Proof.Gen.KernelIdeal.Launch
import proofs.«114537_j53635551592612_1_alg».proof.Proof.Gen.KernelIdeal.Points
import proofs.«114537_j53635551592612_1_alg».proof.Proof.Gen.KernelIdeal.Frame
import proofs.«114537_j53635551592612_1_alg».proof.Proof.Gen.ReferenceIdeal
import proofs.«114537_j53635551592612_1_alg».proof.Proof.Gen.Pre_finite_inputs
import proofs.«114537_j53635551592612_1_alg».proof.Proof.Gen.ReferenceIdeal.Run
import proofs.«114537_j53635551592612_1_alg».proof.Proof.Gen.ReferenceIdeal.Read
import proofs.«114537_j53635551592612_1_alg».proof.Proof.KernelFinal
import proofs.«114537_j53635551592612_1_alg».proof.Proof.RefOut
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the network's output of the argument arrays, which agree. -/
theorem algebraic : Cert.algebraic_KernelIdeal_ReferenceIdeal := by
  intro m ρ m' ρ' _ hagree
  refine ⟨fun c => Cert.Mlp.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v43_eq, Cert.Mlp.Ref.ref_out, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
